-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x257 : Shape := ⟨3, ![16, 900, 257]⟩
abbrev S16x900x4 : Shape := ⟨3, ![16, 900, 4]⟩
abbrev S16x128x4 : Shape := ⟨3, ![16, 128, 4]⟩
abbrev S16x128 : Shape := ⟨2, ![16, 128]⟩
abbrev S_ : Shape := ⟨0, ![]⟩

class Facts : Prop where
  bcast_S_S16x900x257 : S_.BroadcastsInDim S16x900x257 (![] : Fin 0 → Fin S16x900x257.rank)
  reducesTo_S16x900x257_S_d0_1_2 : S16x900x257.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S16x128x4 : S_.BroadcastsInDim S16x128x4 (![] : Fin 0 → Fin S16x128x4.rank)
  reducesTo_S16x128x4_S_d0_1_2 : S16x128x4.ReducesTo [0, 1, 2] S_
  bcast_S_S16x128 : S_.BroadcastsInDim S16x128 (![] : Fin 0 → Fin S16x128.rank)
  reducesTo_S16x128_S_d0_1 : S16x128.ReducesTo [0, 1] S_

variable [Facts]

def fn_part1 {F : FTy → Type} [FloatOps F] (main_arg3 : IVec S16x128 32) (main_v13 : IVec S_ 1) (main_v15 : IVec S16x128 1) (main_c_5 : IVec S_ 1) : IVec S_ 1 :=
  let main_v16 : IVec S_ 1 := (fun x v => Host.reduce IntOp.andi x v reducesTo_S16x128_S_d0_1 h_S_) main_v15 main_c_5
  let main_v17 : IVec S_ 1 := andi main_v13 main_v16
  let main_c_6 : IVec S_ 32 := constantI S_ 32 257#32
  let main_v18 : IVec S16x128 32 := broadcastInDim S16x128 ![] bcast_S_S16x128 main_c_6
  let main_v19 : IVec S16x128 1 := cmpi .slt main_arg3 main_v18
  let main_c_7 : IVec S_ 1 := constantI S_ 1 1#1
  let main_v20 : IVec S_ 1 := (fun x v => Host.reduce IntOp.andi x v reducesTo_S16x128_S_d0_1 h_S_) main_v19 main_c_7
  let main_v21 : IVec S_ 1 := andi main_v17 main_v20
  main_v21

def fn {F : FTy → Type} [FloatOps F] (main_arg0 : FVec F S16x900x257 .f32) (main_arg1 : FVec F S16x900x4 .f32) (main_arg2 : FVec F S16x128x4 .f32) (main_arg3 : IVec S16x128 32) : IVec S_ 1 :=
  let main_v0 : FVec F S16x900x257 .f32 := Host.absf main_arg0
  let main_cst : FVec F S_ .f32 := constant S_ .f32 0x7F800000#32
  let main_v1 : FVec F S16x900x257 .f32 := broadcastInDim S16x900x257 ![] bcast_S_S16x900x257 main_cst
  let main_v2 : IVec S16x900x257 1 := cmpf .olt main_v0 main_v1
  let main_c : IVec S_ 1 := constantI S_ 1 1#1
  let main_v3 : IVec S_ 1 := (fun x v => Host.reduce IntOp.andi x v reducesTo_S16x900x257_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S16x128x4 .f32 := Host.absf main_arg2
  let main_cst_2 : FVec F S_ .f32 := constant S_ .f32 0x7F800000#32
  let main_v10 : FVec F S16x128x4 .f32 := broadcastInDim S16x128x4 ![] bcast_S_S16x128x4 main_cst_2
  let main_v11 : IVec S16x128x4 1 := cmpf .olt main_v9 main_v10
  let main_c_3 : IVec S_ 1 := constantI S_ 1 1#1
  let main_v12 : IVec S_ 1 := (fun x v => Host.reduce IntOp.andi x v reducesTo_S16x128x4_S_d0_1_2 h_S_) main_v11 main_c_3
  let main_v13 : IVec S_ 1 := andi main_v8 main_v12
  let main_c_4 : IVec S_ 32 := constantI S_ 32 0#32
  let main_v14 : IVec S16x128 32 := broadcastInDim S16x128 ![] bcast_S_S16x128 main_c_4
  let main_v15 : IVec S16x128 1 := cmpi .sge main_arg3 main_v14
  let main_c_5 : IVec S_ 1 := constantI S_ 1 1#1
  fn_part1 (F := F) main_arg3 main_v13 main_v15 main_c_5
-- ==== Kernel.lean ====
abbrev S16x900x257 : Shape := ⟨3, ![16, 900, 257]⟩
abbrev S16x900x4 : Shape := ⟨3, ![16, 900, 4]⟩
abbrev S16x128x4 : Shape := ⟨3, ![16, 128, 4]⟩
abbrev S16x128 : Shape := ⟨2, ![16, 128]⟩
abbrev S257 : Shape := ⟨1, ![257]⟩
abbrev S257x1 : Shape := ⟨2, ![257, 1]⟩
abbrev S16x1x128 : Shape := ⟨3, ![16, 1, 128]⟩
abbrev S1x257x1 : Shape := ⟨3, ![1, 257, 1]⟩
abbrev S16x257x128 : Shape := ⟨3, ![16, 257, 128]⟩
abbrev S16x900x128 : Shape := ⟨3, ![16, 900, 128]⟩
abbrev S1x900x257 : Shape := ⟨3, ![1, 900, 257]⟩
abbrev S1x900x4 : Shape := ⟨3, ![1, 900, 4]⟩
abbrev S1x128x4 : Shape := ⟨3, ![1, 128, 4]⟩
abbrev S1x257x128 : Shape := ⟨3, ![1, 257, 128]⟩
abbrev S1x900x128 : Shape := ⟨3, ![1, 900, 128]⟩
abbrev S900x257 : Shape := ⟨2, ![900, 257]⟩
abbrev S900 : Shape := ⟨1, ![900]⟩
abbrev S900x1 : Shape := ⟨2, ![900, 1]⟩
abbrev S257x128 : Shape := ⟨2, ![257, 128]⟩
abbrev S900x128 : Shape := ⟨2, ![900, 128]⟩
abbrev S900x4 : Shape := ⟨2, ![900, 4]⟩
abbrev S128x4 : Shape := ⟨2, ![128, 4]⟩
abbrev S4x128 : Shape := ⟨2, ![4, 128]⟩
abbrev S1x128 : Shape := ⟨2, ![1, 128]⟩

abbrev nBuf : Space → Nat
  | .hbm => 13
  | .vmem => 10
  | .smem => 0
  | _ => 0

abbrev bufTy : (tb : Table) → Fin (tcTables nBuf tb) → BufTy
  | .hbm, ⟨0, _⟩ => ⟨S16x900x257, .f32⟩
  | .hbm, ⟨1, _⟩ => ⟨S16x900x4, .f32⟩
  | .hbm, ⟨2, _⟩ => ⟨S16x128x4, .f32⟩
  | .hbm, ⟨3, _⟩ => ⟨S16x128, .i32⟩
  | .hbm, ⟨4, _⟩ => ⟨S257, .i32⟩
  | .hbm, ⟨5, _⟩ => ⟨S257x1, .i32⟩
  | .hbm, ⟨6, _⟩ => ⟨S16x1x128, .i32⟩
  | .hbm, ⟨7, _⟩ => ⟨S1x257x1, .i32⟩
  | .hbm, ⟨8, _⟩ => ⟨S16x257x128, .i32⟩
  | .hbm, ⟨9, _⟩ => ⟨S16x257x128, .i32⟩
  | .hbm, ⟨10, _⟩ => ⟨S16x257x128, .i1⟩
  | .hbm, ⟨11, _⟩ => ⟨S16x257x128, .f32⟩
  | .hbm, ⟨12, _⟩ => ⟨S16x900x128, .f32⟩
  | .local _ .vmem, ⟨0, _⟩ => ⟨S1x900x257, .f32⟩
  | .local _ .vmem, ⟨1, _⟩ => ⟨S1x900x257, .f32⟩
  | .local _ .vmem, ⟨2, _⟩ => ⟨S1x900x4, .f32⟩
  | .local _ .vmem, ⟨3, _⟩ => ⟨S1x900x4, .f32⟩
  | .local _ .vmem, ⟨4, _⟩ => ⟨S1x128x4, .f32⟩
  | .local _ .vmem, ⟨5, _⟩ => ⟨S1x128x4, .f32⟩
  | .local _ .vmem, ⟨6, _⟩ => ⟨S1x257x128, .f32⟩
  | .local _ .vmem, ⟨7, _⟩ => ⟨S1x257x128, .f32⟩
  | .local _ .vmem, ⟨8, _⟩ => ⟨S1x900x128, .f32⟩
  | .local _ .vmem, ⟨9, _⟩ => ⟨S1x900x128, .f32⟩
  | _, _ => ⟨S16x900x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x257x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x900x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S257_S257x1_0 : S257.BroadcastsInDim S257x1 (![0] : Fin 1 → Fin S257x1.rank)
  bcast_S16x128_S16x1x128_0_2 : S16x128.BroadcastsInDim S16x1x128 (![0, 2] : Fin 2 → Fin S16x1x128.rank)
  bcast_S257x1_S1x257x1_1_2 : S257x1.BroadcastsInDim S1x257x1 (![1, 2] : Fin 2 → Fin S1x257x1.rank)
  bcast_S1x257x1_S16x257x128_0_1_2 : S1x257x1.BroadcastsInDim S16x257x128 (![0, 1, 2] : Fin 3 → Fin S16x257x128.rank)
  bcast_S16x1x128_S16x257x128_0_1_2 : S16x1x128.BroadcastsInDim S16x257x128 (![0, 1, 2] : Fin 3 → Fin S16x257x128.rank)
  inb_S1x900x257_S1x900x257_0_0_0 : ∀ a, (![0, 0, 0] : Fin 3 → Nat) a + S1x900x257.size a ≤ S1x900x257.size a
  h_S1x900x257 : 0 < S1x900x257.numel
  shapeCasts_S1x900x257_S900x257 : S1x900x257.ShapeCasts S900x257
  reduces_S900x257_S900 : S900x257.Reduces [1] S900
  shapeCasts_S900_S900x1 : S900.ShapeCasts S900x1
  broadcasts_S900x1_S900x257 : S900x1.Broadcasts S900x257
  bitsLt_bf16_f32 : FTy.bits .bf16 < FTy.bits .f32
  inb_S1x257x128_S1x257x128_0_0_0 : ∀ a, (![0, 0, 0] : Fin 3 → Nat) a + S1x257x128.size a ≤ S1x257x128.size a
  h_S1x257x128 : 0 < S1x257x128.numel
  shapeCasts_S1x257x128_S257x128 : S1x257x128.ShapeCasts S257x128
  inb_S1x900x4_S1x900x4_0_0_0 : ∀ a, (![0, 0, 0] : Fin 3 → Nat) a + S1x900x4.size a ≤ S1x900x4.size a
  h_S1x900x4 : 0 < S1x900x4.numel
  shapeCasts_S1x900x4_S900x4 : S1x900x4.ShapeCasts S900x4
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  transposes_S128x4_p1_0_S4x128 : S128x4.Transposes [1, 0] S4x128
  slices_S900x4_o0_0_S900x1 : S900x4.Slices ![0, 0] S900x1
  slices_S900x4_o0_1_S900x1 : S900x4.Slices ![0, 1] S900x1
  slices_S900x4_o0_2_S900x1 : S900x4.Slices ![0, 2] S900x1
  slices_S900x4_o0_3_S900x1 : S900x4.Slices ![0, 3] S900x1
  slices_S4x128_o0_0_S1x128 : S4x128.Slices ![0, 0] S1x128
  slices_S4x128_o1_0_S1x128 : S4x128.Slices ![1, 0] S1x128
  slices_S4x128_o2_0_S1x128 : S4x128.Slices ![2, 0] S1x128
  slices_S4x128_o3_0_S1x128 : S4x128.Slices ![3, 0] S1x128
  broadcasts_S900x1_S900x128 : S900x1.Broadcasts S900x128
  broadcasts_S1x128_S900x128 : S1x128.Broadcasts S900x128
  inb_S1x900x128_S1x900x128_0_0_0 : ∀ a, (![0, 0, 0] : Fin 3 → Nat) a + S1x900x128.size a ≤ S1x900x128.size a
  h_S1x900x128 : 0 < S1x900x128.numel
  shapeCasts_S1x900x128_S900x128 : S1x900x128.ShapeCasts S900x128
  shapeCasts_S900x128_S1x900x128 : S900x128.ShapeCasts S1x900x128
  dot_S900x257_S257x128_S900x128_1_0_0_1_n_n_wf : DotDims.WF S900x257 S257x128 S900x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x900x257.size a ≤ S16x900x257.size a
  hwx0_0 : ∀ i : grid0.Coords, EltTy.bits .f32 = 32 ∨ (Rect.block (s := S16x900x257) S1x900x257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x900x4.size a ≤ S16x900x4.size a
  hwx0_1 : ∀ i : grid0.Coords, EltTy.bits .f32 = 32 ∨ (Rect.block (s := S16x900x4) S1x900x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4.size a ≤ S16x128x4.size a
  hwx0_2 : ∀ i : grid0.Coords, EltTy.bits .f32 = 32 ∨ (Rect.block (s := S16x128x4) S1x128x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x257x128.size a ≤ S16x257x128.size a
  hwx0_3 : ∀ i : grid0.Coords, EltTy.bits .f32 = 32 ∨ (Rect.block (s := S16x257x128) S1x257x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x900x128.size a ≤ S16x900x128.size a
  hwx0_4 : ∀ i : grid0.Coords, EltTy.bits .f32 = 32 ∨ (Rect.block (s := S16x900x128) S1x900x128.size (cc0_transform_4 i) (hinb0_4 i)).WholeWords (EltTy.packing .f32)

variable [Facts₀]

def dot_S900x257_S257x128_S900x128_1_0_0_1_n_n : DotDims S900x257 S257x128 S900x128 where
  lhsContracting := [1]
  rhsContracting := [0]
  lhsNonContracting := [0]
  rhsNonContracting := [1]
  lhsBatch := []
  rhsBatch := []
  wf := dot_S900x257_S257x128_S900x128_1_0_0_1_n_n_wf

abbrev win0_0 : Pipeline.Window sig grid0 :=
  Pipeline.Window.ofSpec (Memref.whole main_arg0) S1x900x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x900x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x257x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x900x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x257 : Shape := ⟨3, ![16, 900, 257]⟩
abbrev S16x900x4 : Shape := ⟨3, ![16, 900, 4]⟩
abbrev S16x128x4 : Shape := ⟨3, ![16, 128, 4]⟩
abbrev S16x128 : Shape := ⟨2, ![16, 128]⟩
abbrev S14400x257 : Shape := ⟨2, ![14400, 257]⟩
abbrev S_ : Shape := ⟨0, ![]⟩
abbrev S14400 : Shape := ⟨1, ![14400]⟩
abbrev S14400x1 : Shape := ⟨2, ![14400, 1]⟩
abbrev S14400x4 : Shape := ⟨2, ![14400, 4]⟩
abbrev S2048 : Shape := ⟨1, ![2048]⟩
abbrev S2048x4 : Shape := ⟨2, ![2048, 4]⟩
abbrev S2048x1 : Shape := ⟨2, ![2048, 1]⟩
abbrev S14400x2048 : Shape := ⟨2, ![14400, 2048]⟩
abbrev S14400x1x4 : Shape := ⟨3, ![14400, 1, 4]⟩
abbrev S1x2048x4 : Shape := ⟨3, ![1, 2048, 4]⟩
abbrev S14400x2048x4 : Shape := ⟨3, ![14400, 2048, 4]⟩
abbrev S14400x2 : Shape := ⟨2, ![14400, 2]⟩
abbrev S14400x1x2 : Shape := ⟨3, ![14400, 1, 2]⟩
abbrev S2048x2 : Shape := ⟨2, ![2048, 2]⟩
abbrev S1x2048x2 : Shape := ⟨3, ![1, 2048, 2]⟩
abbrev S14400x2048x2 : Shape := ⟨3, ![14400, 2048, 2]⟩
abbrev S14400x2048x1 : Shape := ⟨3, ![14400, 2048, 1]⟩
abbrev S1x2048 : Shape := ⟨2, ![1, 2048]⟩
abbrev S16x900x16x128 : Shape := ⟨4, ![16, 900, 16, 128]⟩
abbrev S16 : Shape := ⟨1, ![16]⟩
abbrev S16x1 : Shape := ⟨2, ![16, 1]⟩
abbrev S16x2 : Shape := ⟨2, ![16, 2]⟩
abbrev S16x900x128 : Shape := ⟨3, ![16, 900, 128]⟩

abbrev nBuf : Space → Nat
  | .hbm => 195
  | .vmem => 0
  | .smem => 0
  | _ => 0

abbrev hbmTy0_0 (i : Nat) : BufTy := match i % 128 with
  | 0 => ⟨S16x900x257, .f32⟩
  | 1 => ⟨S16x900x4, .f32⟩
  | 2 => ⟨S16x128x4, .f32⟩
  | 3 => ⟨S16x128, .i32⟩
  | 4 => ⟨S14400x257, .f32⟩
  | 5 => ⟨S_, .f32⟩
  | 6 => ⟨S14400, .f32⟩
  | 7 => ⟨S_, .f32⟩
  | 8 => ⟨S14400, .f32⟩
  | 9 => ⟨S14400, .f32⟩
  | 10 => ⟨S14400x1, .f32⟩
  | 11 => ⟨S14400x257, .f32⟩
  | 12 => ⟨S14400x257, .f32⟩
  | 13 => ⟨S14400x257, .f32⟩
  | 14 => ⟨S_, .f32⟩
  | 15 => ⟨S14400, .f32⟩
  | 16 => ⟨S14400x1, .f32⟩
  | 17 => ⟨S14400x257, .f32⟩
  | 18 => ⟨S14400x257, .f32⟩
  | 19 => ⟨S14400x4, .f32⟩
  | 20 => ⟨S2048, .i32⟩
  | 21 => ⟨S2048x4, .f32⟩
  | 22 => ⟨S_, .i32⟩
  | 23 => ⟨S2048, .i32⟩
  | 24 => ⟨S2048, .i1⟩
  | 25 => ⟨S_, .i32⟩
  | 26 => ⟨S2048, .i32⟩
  | 27 => ⟨S2048, .i32⟩
  | 28 => ⟨S2048, .i32⟩
  | 29 => ⟨S2048x1, .i32⟩
  | 30 => ⟨S14400x2048, .f32⟩
  | 31 => ⟨S14400x2048, .f32⟩
  | 32 => ⟨S14400x1x4, .f32⟩
  | 33 => ⟨S1x2048x4, .f32⟩
  | 34 => ⟨S14400x2048x4, .f32⟩
  | 35 => ⟨S14400x2048x4, .f32⟩
  | 36 => ⟨S14400x2048x4, .f32⟩
  | 37 => ⟨S14400x2048x4, .f32⟩
  | 38 => ⟨S_, .f32⟩
  | 39 => ⟨S14400x2048, .f32⟩
  | 40 => ⟨S14400x1, .f32⟩
  | 41 => ⟨S14400x1, .f32⟩
  | 42 => ⟨S14400x1, .f32⟩
  | 43 => ⟨S14400x1, .f32⟩
  | 44 => ⟨S_, .f32⟩
  | 45 => ⟨S14400x1, .f32⟩
  | 46 => ⟨S14400x1, .f32⟩
  | 47 => ⟨S14400x1, .f32⟩
  | 48 => ⟨S_, .f32⟩
  | 49 => ⟨S14400x1, .f32⟩
  | 50 => ⟨S14400x1, .f32⟩
  | 51 => ⟨S14400x1, .f32⟩
  | 52 => ⟨S_, .f32⟩
  | 53 => ⟨S14400x1, .f32⟩
  | 54 => ⟨S14400x1, .f32⟩
  | 55 => ⟨S14400x1, .f32⟩
  | 56 => ⟨S_, .f32⟩
  | 57 => ⟨S14400x1, .f32⟩
  | 58 => ⟨S14400x1, .f32⟩
  | 59 => ⟨S14400x1, .f32⟩
  | 60 => ⟨S14400x4, .f32⟩
  | 61 => ⟨S2048x1, .f32⟩
  | 62 => ⟨S2048x1, .f32⟩
  | 63 => ⟨S2048x1, .f32⟩
  | 64 => ⟨S2048x1, .f32⟩
  | 65 => ⟨S_, .f32⟩
  | 66 => ⟨S2048x1, .f32⟩
  | 67 => ⟨S2048x1, .f32⟩
  | 68 => ⟨S2048x1, .f32⟩
  | 69 => ⟨S_, .f32⟩
  | 70 => ⟨S2048x1, .f32⟩
  | 71 => ⟨S2048x1, .f32⟩
  | 72 => ⟨S2048x1, .f32⟩
  | 73 => ⟨S_, .f32⟩
  | 74 => ⟨S2048x1, .f32⟩
  | 75 => ⟨S2048x1, .f32⟩
  | 76 => ⟨S2048x1, .f32⟩
  | 77 => ⟨S_, .f32⟩
  | 78 => ⟨S2048x1, .f32⟩
  | 79 => ⟨S2048x1, .f32⟩
  | 80 => ⟨S2048x1, .f32⟩
  | 81 => ⟨S2048x4, .f32⟩
  | 82 => ⟨S14400x1, .f32⟩
  | 83 => ⟨S14400, .f32⟩
  | 84 => ⟨S14400x1, .f32⟩
  | 85 => ⟨S14400, .f32⟩
  | 86 => ⟨S14400, .f32⟩
  | 87 => ⟨S14400x1, .f32⟩
  | 88 => ⟨S14400, .f32⟩
  | 89 => ⟨S14400x1, .f32⟩
  | 90 => ⟨S14400, .f32⟩
  | 91 => ⟨S14400, .f32⟩
  | 92 => ⟨S14400, .f32⟩
  | 93 => ⟨S2048x1, .f32⟩
  | 94 => ⟨S2048, .f32⟩
  | 95 => ⟨S2048x1, .f32⟩
  | 96 => ⟨S2048, .f32⟩
  | 97 => ⟨S2048, .f32⟩
  | 98 => ⟨S2048x1, .f32⟩
  | 99 => ⟨S2048, .f32⟩
  | 100 => ⟨S2048x1, .f32⟩
  | 101 => ⟨S2048, .f32⟩
  | 102 => ⟨S2048, .f32⟩
  | 103 => ⟨S2048, .f32⟩
  | 104 => ⟨S14400x2, .f32⟩
  | 105 => ⟨S14400x1x2, .f32⟩
  | 106 => ⟨S2048x2, .f32⟩
  | 107 => ⟨S1x2048x2, .f32⟩
  | 108 => ⟨S14400x2048x2, .f32⟩
  | 109 => ⟨S14400x2048x2, .f32⟩
  | 110 => ⟨S14400x2048x2, .f32⟩
  | 111 => ⟨S14400x2, .f32⟩
  | 112 => ⟨S14400x1x2, .f32⟩
  | 113 => ⟨S2048x2, .f32⟩
  | 114 => ⟨S1x2048x2, .f32⟩
  | 115 => ⟨S14400x2048x2, .f32⟩
  | 116 => ⟨S14400x2048x2, .f32⟩
  | 117 => ⟨S14400x2048x2, .f32⟩
  | 118 => ⟨S14400x2048x2, .f32⟩
  | 119 => ⟨S_, .f32⟩
  | 120 => ⟨S_, .f32⟩
  | 121 => ⟨S14400x2048x2, .f32⟩
  | 122 => ⟨S14400x2048x2, .f32⟩
  | 123 => ⟨S14400x2048x1, .f32⟩
  | 124 => ⟨S14400x2048, .f32⟩
  | 125 => ⟨S14400x2048x1, .f32⟩
  | 126 => ⟨S14400x2048, .f32⟩
  | 127 => ⟨S14400x2048, .f32⟩
  | _ => ⟨S16x900x257, .f32⟩

abbrev hbmTy0_1 (i : Nat) : BufTy := match i % 128 with
  | 0 => ⟨S14400x1, .f32⟩
  | 1 => ⟨S1x2048, .f32⟩
  | 2 => ⟨S14400x2048, .f32⟩
  | 3 => ⟨S14400x2048, .f32⟩
  | 4 => ⟨S14400x2048, .f32⟩
  | 5 => ⟨S14400x2048, .f32⟩
  | 6 => ⟨S14400x2048, .f32⟩
  | 7 => ⟨S14400x2, .f32⟩
  | 8 => ⟨S14400x1x2, .f32⟩
  | 9 => ⟨S2048x2, .f32⟩
  | 10 => ⟨S1x2048x2, .f32⟩
  | 11 => ⟨S14400x2048x2, .f32⟩
  | 12 => ⟨S14400x2048x2, .f32⟩
  | 13 => ⟨S14400x2048x2, .f32⟩
  | 14 => ⟨S14400x2, .f32⟩
  | 15 => ⟨S14400x1x2, .f32⟩
  | 16 => ⟨S2048x2, .f32⟩
  | 17 => ⟨S1x2048x2, .f32⟩
  | 18 => ⟨S14400x2048x2, .f32⟩
  | 19 => ⟨S14400x2048x2, .f32⟩
  | 20 => ⟨S14400x2048x2, .f32⟩
  | 21 => ⟨S14400x2048x2, .f32⟩
  | 22 => ⟨S_, .f32⟩
  | 23 => ⟨S_, .f32⟩
  | 24 => ⟨S14400x2048x2, .f32⟩
  | 25 => ⟨S14400x2048x2, .f32⟩
  | 26 => ⟨S14400x2048x1, .f32⟩
  | 27 => ⟨S14400x2048, .f32⟩
  | 28 => ⟨S14400x2048x1, .f32⟩
  | 29 => ⟨S14400x2048, .f32⟩
  | 30 => ⟨S14400x2048, .f32⟩
  | 31 => ⟨S14400x2048, .f32⟩
  | 32 => ⟨S14400x2048, .f32⟩
  | 33 => ⟨S14400x2048, .f32⟩
  | 34 => ⟨S14400x2048, .f32⟩
  | 35 => ⟨S_, .f32⟩
  | 36 => ⟨S14400x2048, .f32⟩
  | 37 => ⟨S14400x2048, .f32⟩
  | 38 => ⟨S_, .f32⟩
  | 39 => ⟨S14400x2048, .f32⟩
  | 40 => ⟨S14400x2048, .f32⟩
  | 41 => ⟨S14400x2048, .f32⟩
  | 42 => ⟨S_, .f32⟩
  | 43 => ⟨S14400x2048, .f32⟩
  | 44 => ⟨S14400x2048, .f32⟩
  | 45 => ⟨S14400x2048, .f32⟩
  | 46 => ⟨S16x900x16x128, .f32⟩
  | 47 => ⟨S16, .i32⟩
  | 48 => ⟨S16, .i32⟩
  | 49 => ⟨S_, .i32⟩
  | 50 => ⟨S16, .i32⟩
  | 51 => ⟨S16, .i1⟩
  | 52 => ⟨S_, .i32⟩
  | 53 => ⟨S16, .i32⟩
  | 54 => ⟨S16, .i32⟩
  | 55 => ⟨S16, .i32⟩
  | 56 => ⟨S_, .i32⟩
  | 57 => ⟨S16, .i32⟩
  | 58 => ⟨S16, .i1⟩
  | 59 => ⟨S_, .i32⟩
  | 60 => ⟨S16, .i32⟩
  | 61 => ⟨S16, .i32⟩
  | 62 => ⟨S16, .i32⟩
  | 63 => ⟨S16x1, .i32⟩
  | 64 => ⟨S16x1, .i32⟩
  | 65 => ⟨S16x2, .i32⟩
  | 66 => ⟨S16x900x128, .f32⟩
  | _ => ⟨S16x900x257, .f32⟩

abbrev hbmTy (i : Nat) : BufTy := match i / 128 with
  | 0 => hbmTy0_0 i
  | 1 => hbmTy0_1 i
  | _ => ⟨S16x900x257, .f32⟩

abbrev bufTy : (tb : Table) → Fin (tcTables nBuf tb) → BufTy
  | .hbm, ⟨i, _⟩ => hbmTy i
  | _, _ => ⟨S16x900x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_12 : Ref sig .tc := ⟨.hbm, 119, rfl⟩
abbrev main_call0_v0 : Ref sig .tc := ⟨.hbm, 120, rfl⟩
abbrev main_call0_v1 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_13 : Ref sig .tc := ⟨.hbm, 150, rfl⟩
abbrev main_call1_v0 : Ref sig .tc := ⟨.hbm, 151, rfl⟩
abbrev main_call1_v1 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_cst_14 : Ref sig .tc := ⟨.hbm, 163, rfl⟩
abbrev main_v139 : Ref sig .tc := ⟨.hbm, 164, rfl⟩
abbrev main_v140 : Ref sig .tc := ⟨.hbm, 165, rfl⟩
abbrev main_cst_15 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_cst_16 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_c_17 : Ref sig .tc := ⟨.hbm, 177, rfl⟩
abbrev main_v150 : Ref sig .tc := ⟨.hbm, 178, rfl⟩
abbrev main_v151 : Ref sig .tc := ⟨.hbm, 179, rfl⟩
abbrev main_c_18 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_c_19 : Ref sig .tc := ⟨.hbm, 184, rfl⟩
abbrev main_v155 : Ref sig .tc := ⟨.hbm, 185, rfl⟩
abbrev main_v156 : Ref sig .tc := ⟨.hbm, 186, rfl⟩
abbrev main_c_20 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩

abbrev nD : Nat := 1
abbrev τ : Topo := Topo.v7x

variable {F : FTy → Type} [FloatOps F]

class Facts₀ : Prop where
  shapeCasts_S16x900x257_S14400x257 : S16x900x257.ShapeCasts S14400x257
  reducesTo_S14400x257_S14400_d1 : S14400x257.ReducesTo [1] S14400
  h_S_ : 0 < S_.numel
  bcast_S_S14400 : S_.BroadcastsInDim S14400 (![] : Fin 0 → Fin S14400.rank)
  bcast_S14400_S14400x1_0 : S14400.BroadcastsInDim S14400x1 (![0] : Fin 1 → Fin S14400x1.rank)
  bcast_S14400x1_S14400x257_0_1 : S14400x1.BroadcastsInDim S14400x257 (![0, 1] : Fin 2 → Fin S14400x257.rank)
  shapeCasts_S16x900x4_S14400x4 : S16x900x4.ShapeCasts S14400x4
  shapeCasts_S16x128_S2048 : S16x128.ShapeCasts S2048
  shapeCasts_S16x128x4_S2048x4 : S16x128x4.ShapeCasts S2048x4
  bcast_S_S2048 : S_.BroadcastsInDim S2048 (![] : Fin 0 → Fin S2048.rank)
  bcast_S2048_S2048x1_0 : S2048.BroadcastsInDim S2048x1 (![0] : Fin 1 → Fin S2048x1.rank)
  bcast_S14400x4_S14400x1x4_0_2 : S14400x4.BroadcastsInDim S14400x1x4 (![0, 2] : Fin 2 → Fin S14400x1x4.rank)
  bcast_S2048x4_S1x2048x4_1_2 : S2048x4.BroadcastsInDim S1x2048x4 (![1, 2] : Fin 2 → Fin S1x2048x4.rank)
  bcast_S14400x1x4_S14400x2048x4_0_1_2 : S14400x1x4.BroadcastsInDim S14400x2048x4 (![0, 1, 2] : Fin 3 → Fin S14400x2048x4.rank)
  bcast_S1x2048x4_S14400x2048x4_0_1_2 : S1x2048x4.BroadcastsInDim S14400x2048x4 (![0, 1, 2] : Fin 3 → Fin S14400x2048x4.rank)
  reducesTo_S14400x2048x4_S14400x2048_d2 : S14400x2048x4.ReducesTo [2] S14400x2048
  slices_S14400x4_S14400x1_0_0 : S14400x4.Slices ![0, 0] S14400x1
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400x1 : S_.BroadcastsInDim S14400x1 (![] : Fin 0 → Fin S14400x1.rank)
  concatenates_S14400x1_S14400x1_S14400x1_S14400x1_S14400x4_d1 : Shape.Concatenates [S14400x1, S14400x1, S14400x1, S14400x1] S14400x4 1
  slices_S2048x4_S2048x1_0_0 : S2048x4.Slices ![0, 0] S2048x1
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  bcast_S_S2048x1 : S_.BroadcastsInDim S2048x1 (![] : Fin 0 → Fin S2048x1.rank)
  concatenates_S2048x1_S2048x1_S2048x1_S2048x1_S2048x4_d1 : Shape.Concatenates [S2048x1, S2048x1, S2048x1, S2048x1] S2048x4 1
  shapeCasts_S14400x1_S14400 : S14400x1.ShapeCasts S14400
  shapeCasts_S2048x1_S2048 : S2048x1.ShapeCasts S2048
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S2048x4_S2048x2_0_0 : S2048x4.Slices ![0, 0] S2048x2
  bcast_S2048x2_S1x2048x2_1_2 : S2048x2.BroadcastsInDim S1x2048x2 (![1, 2] : Fin 2 → Fin S1x2048x2.rank)
  bcast_S14400x1x2_S14400x2048x2_0_1_2 : S14400x1x2.BroadcastsInDim S14400x2048x2 (![0, 1, 2] : Fin 3 → Fin S14400x2048x2.rank)
  bcast_S1x2048x2_S14400x2048x2_0_1_2 : S1x2048x2.BroadcastsInDim S14400x2048x2 (![0, 1, 2] : Fin 3 → Fin S14400x2048x2.rank)
  slices_S14400x4_S14400x2_0_2 : S14400x4.Slices ![0, 2] S14400x2
  slices_S2048x4_S2048x2_0_2 : S2048x4.Slices ![0, 2] S2048x2
  bcast_S_S14400x2048x2 : S_.BroadcastsInDim S14400x2048x2 (![] : Fin 0 → Fin S14400x2048x2.rank)
  slices_S14400x2048x2_S14400x2048x1_0_0_0 : S14400x2048x2.Slices ![0, 0, 0] S14400x2048x1
  shapeCasts_S14400x2048x1_S14400x2048 : S14400x2048x1.ShapeCasts S14400x2048
  slices_S14400x2048x2_S14400x2048x1_0_0_1 : S14400x2048x2.Slices ![0, 0, 1] S14400x2048x1
  bcast_S2048_S1x2048_1 : S2048.BroadcastsInDim S1x2048 (![1] : Fin 1 → Fin S1x2048.rank)
  bcast_S14400x1_S14400x2048_0_1 : S14400x1.BroadcastsInDim S14400x2048 (![0, 1] : Fin 2 → Fin S14400x2048.rank)
  bcast_S1x2048_S14400x2048_0_1 : S1x2048.BroadcastsInDim S14400x2048 (![0, 1] : Fin 2 → Fin S14400x2048.rank)
  bcast_S_S14400x2048 : S_.BroadcastsInDim S14400x2048 (![] : Fin 0 → Fin S14400x2048.rank)
  shapeCasts_S14400x2048_S16x900x16x128 : S14400x2048.ShapeCasts S16x900x16x128
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  gather_S14400x257_S2048x1_S14400x2048_0_1_n_n_1_1_144001_wf : GatherDims.WF S14400x257 S2048x1 S14400x2048 [0] [1] [] [1] [] 1 ![14400, 1]
  gather_S16x900x16x128_S16x2_S16x900x128_12_02_n_n_02_1_19001128_wf : GatherDims.WF S16x900x16x128 S16x2 S16x900x128 [1, 2] [0, 2] [] [0, 2] [] 1 ![1, 900, 1, 128]

variable [Facts₀]

def gather_S14400x257_S2048x1_S14400x2048_0_1_n_n_1_1_144001 : GatherDims S14400x257 S2048x1 S14400x2048 where
  offsetDims := [0]
  collapsedSliceDims := [1]
  operandBatchingDims := []
  startIndicesBatchingDims := []
  startIndexMap := [1]
  indexVectorDim := 1
  sliceSizes := ![14400, 1]
  wf := gather_S14400x257_S2048x1_S14400x2048_0_1_n_n_1_1_144001_wf
def gather_S16x900x16x128_S16x2_S16x900x128_12_02_n_n_02_1_19001128 : GatherDims S16x900x16x128 S16x2 S16x900x128 where
  offsetDims := [1, 2]
  collapsedSliceDims := [0, 2]
  operandBatchingDims := []
  startIndicesBatchingDims := []
  startIndexMap := [0, 2]
  indexVectorDim := 1
  sliceSizes := ![1, 900, 1, 128]
  wf := gather_S16x900x16x128_S16x2_S16x900x128_12_02_n_n_02_1_19001128_wf

class Facts : Prop extends Facts₀ where

variable [Facts]
-- ==== Proof.Spec.lean ====
/-
  The matching cost of one (query, target) pair as a function on the extended reals, in the two
  arrangements the programs compute it in.

  A query row of 257 logits gives class probabilities by the shifted softmax
  `exp (x c - M) / Σ_k exp (x k - M)`, `M` the row maximum taken from `-∞`.  A predicted box
  `p = (cx, cy, w, h)` and a target box `t` give the L1 distance `Σ_k |p k - t k|` and the
  generalized IoU of their corner forms `(c - w/2, c + w/2)`: with `I` the overlap area, `U` the
  union area and `E` the area of the enclosing box, `I / U - (E - U) / E`.  The cost is
  `1 · class + 5 · L1 + 2 · (-GIoU)`.

  The first arrangement takes a box's area as `w · h`, sums the four distances left to right, negates by
  subtracting from zero and selects the class probability by a sum against an indicator column.  The
  second takes the area from the corners, `((c + w/2) - (c - w/2))` per axis, sums the distances from a
  zero initial value, negates directly and selects the class probability by its index.
-/
import Idealize.ShloMosaic.PureOps.Ideal
import Idealize.ShloMosaic.Lib.ValueIdx

noncomputable section

namespace Cert.MatchCost

open Idealize.ShloMosaic

/-- The literals both programs spell, as the extended reals their words denote. -/
abbrev negInfW : EReal := Ideal.ofBits .f32 0xFF800000#32
abbrev zeroW : EReal := Ideal.ofBits .f32 0x00000000#32
abbrev halfW : EReal := Ideal.ofBits .f32 0x3F000000#32
abbrev oneW : EReal := Ideal.ofBits .f32 0x3F800000#32
abbrev fiveW : EReal := Ideal.ofBits .f32 0x40A00000#32
abbrev twoW : EReal := Ideal.ofBits .f32 0x40000000#32

/-! ## Class probabilities -/

/-- The maximum of a row, folded from `-∞` and joined with `-∞` once more. -/
def rowMax (row : Fin 257 → EReal) : EReal := max negInfW ((Finset.univ : Finset (Fin 257)).fold max negInfW row)

/-- A logit's exponential after the row maximum is subtracted. -/
def expShift (row : Fin 257 → EReal) (c : Fin 257) : EReal := Ideal.exp (row c - rowMax row)

/-- The softmax probability of class `c`, the normaliser a bare sum. -/
def probK (row : Fin 257 → EReal) (c : Fin 257) : EReal := Ideal.div (expShift row c) (∑ k : Fin 257, expShift row k)

/-- The softmax probability of class `c`, the normaliser summed from a zero initial value. -/
def probR (row : Fin 257 → EReal) (c : Fin 257) : EReal := Ideal.div (expShift row c) (zeroW + ∑ k : Fin 257, expShift row k)

/-- The indicator column of a label word: `1` at the class whose number is the word, `0` elsewhere. -/
def indicator (l : BitVec 32) (c : Fin 257) : EReal := (((IntOp.cmpi .eq (BitVec.ofNat 32 c.val) l).toNat : ℝ) : EReal)

/-- The class a label word selects by indexing: a negative word is shifted up by 257, and the result is clamped to the last class. -/
def labelIdx (l : BitVec 32) : Fin 257 :=
  ⟨min (Scalar.select (IntOp.cmpi .slt l 0#32) (l + 257#32) l).toInt.toNat 256, by omega⟩

/-- The class term by a sum against the indicator column, negated by subtraction from zero. -/
def clsK (row : Fin 257 → EReal) (l : BitVec 32) : EReal := zeroW - ∑ c : Fin 257, probK row c * indicator l c

/-- The class term by indexing, negated directly. -/
def clsR (row : Fin 257 → EReal) (l : BitVec 32) : EReal := -(probR row (labelIdx l))

/-! ## Boxes -/

/-- The lower and upper corner along one axis of a box given by centre `c` and extent `e`. -/
def lo (c e : EReal) : EReal := c - halfW * e
def hi (c e : EReal) : EReal := c + halfW * e

/-- `|a|`. -/
def absE (a : EReal) : EReal := max a (-a)

/-- The overlap of two intervals, clipped at zero from the right / from the left. -/
def overlapK (pc pe tc te : EReal) : EReal := max (min (hi pc pe) (hi tc te) - max (lo pc pe) (lo tc te)) zeroW
def overlapR (pc pe tc te : EReal) : EReal := max zeroW (min (hi pc pe) (hi tc te) - max (lo pc pe) (lo tc te))

/-- The extent of the smallest interval holding both, clipped likewise. -/
def hullK (pc pe tc te : EReal) : EReal := max (max (hi pc pe) (hi tc te) - min (lo pc pe) (lo tc te)) zeroW
def hullR (pc pe tc te : EReal) : EReal := max zeroW (max (hi pc pe) (hi tc te) - min (lo pc pe) (lo tc te))

def interK (p t : Fin 4 → EReal) : EReal := overlapK (p 0) (p 2) (t 0) (t 2) * overlapK (p 1) (p 3) (t 1) (t 3)
def interR (p t : Fin 4 → EReal) : EReal := overlapR (p 0) (p 2) (t 0) (t 2) * overlapR (p 1) (p 3) (t 1) (t 3)
def encK (p t : Fin 4 → EReal) : EReal := hullK (p 0) (p 2) (t 0) (t 2) * hullK (p 1) (p 3) (t 1) (t 3)
def encR (p t : Fin 4 → EReal) : EReal := hullR (p 0) (p 2) (t 0) (t 2) * hullR (p 1) (p 3) (t 1) (t 3)

/-- A box's area from its extents, and from its corners. -/
def areaK (b : Fin 4 → EReal) : EReal := b 2 * b 3
def areaR (b : Fin 4 → EReal) : EReal := (hi (b 0) (b 2) - lo (b 0) (b 2)) * (hi (b 1) (b 3) - lo (b 1) (b 3))

def unionK (p t : Fin 4 → EReal) : EReal := (areaK p + areaK t) - interK p t
def unionR (p t : Fin 4 → EReal) : EReal := (areaR p + areaR t) - interR p t

/-- The generalized IoU from union, overlap and enclosing areas. -/
def giouOf (u i e : EReal) : EReal := Ideal.div i u - Ideal.div (e - u) e

/-- The L1 distance, summed left to right / from a zero initial value. -/
def l1K (p t : Fin 4 → EReal) : EReal := ((absE (p 0 - t 0) + absE (p 1 - t 1)) + absE (p 2 - t 2)) + absE (p 3 - t 3)
def l1R (p t : Fin 4 → EReal) : EReal := zeroW + ∑ k : Fin 4, absE (p k - t k)

/-! ## The cost -/

/-- The cost in the first arrangement, from an already negated class term `a`. -/
def costK (a : EReal) (p t : Fin 4 → EReal) : EReal :=
  (oneW * a + fiveW * l1K p t) + twoW * (zeroW - giouOf (unionK p t) (interK p t) (encK p t))

/-- The cost in the second arrangement. -/
def costR (a : EReal) (p t : Fin 4 → EReal) : EReal :=
  (oneW * a + fiveW * l1R p t) + twoW * (-(giouOf (unionR p t) (interR p t) (encR p t)))

/-! ## Rows of the argument arrays -/

abbrev SLogits : Shape := ⟨3, ![16, 900, 257]⟩
abbrev SPred : Shape := ⟨3, ![16, 900, 4]⟩
abbrev STgt : Shape := ⟨3, ![16, 128, 4]⟩
abbrev SLab : Shape := ⟨2, ![16, 128]⟩
abbrev SOut : Shape := ⟨3, ![16, 900, 128]⟩

open ValueIdx

/-- Where image `b`'s query `q` and target `t` sit when the images are laid end to end. -/
abbrev rowOf (b : Fin 16) (q : Fin 900) : Fin 14400 := ⟨b.val * 900 + q.val, by omega⟩
abbrev colOf (b : Fin 16) (t : Fin 128) : Fin 2048 := ⟨b.val * 128 + t.val, by omega⟩

/-- Image `b`, query `q`: the logits row and the predicted box; image `b`, target `t`: the target box. -/
def logitsRow (x0 : SLogits.Idx → EReal) (b : Fin 16) (q : Fin 900) : Fin 257 → EReal := fun c => x0 (ix3 b q c)
def predBox (x1 : SPred.Idx → EReal) (b : Fin 16) (q : Fin 900) : Fin 4 → EReal := fun k => x1 (ix3 b q k)
def tgtBox (x2 : STgt.Idx → EReal) (b : Fin 16) (t : Fin 128) : Fin 4 → EReal := fun k => x2 (ix3 b t k)

/-- The whole cost array in the first arrangement, index by index. -/
def GK (x0 : SLogits.Idx → EReal) (x1 : SPred.Idx → EReal) (x2 : STgt.Idx → EReal) (x3 : SLab.Idx → BitVec 32) : SOut.Idx → EReal :=
  fun i => costK (clsK (logitsRow x0 (i 0) (i 1)) (x3 (ix2 (i 0) (i 2)))) (predBox x1 (i 0) (i 1)) (tgtBox x2 (i 0) (i 2))

/-- The whole cost array in the second arrangement. -/
def GR (x0 : SLogits.Idx → EReal) (x1 : SPred.Idx → EReal) (x2 : STgt.Idx → EReal) (x3 : SLab.Idx → BitVec 32) : SOut.Idx → EReal :=
  fun i => costR (clsR (logitsRow x0 (i 0) (i 1)) (x3 (ix2 (i 0) (i 2)))) (predBox x1 (i 0) (i 1)) (tgtBox x2 (i 0) (i 2))

end Cert.MatchCost

end
-- ==== Proof.Algebra.lean ====
/-
  The two arrangements of the matching cost agree on the extended reals.

  The zero word denotes `0`, so adding it on the left changes nothing and subtracting from it negates;
  `max` is commutative, so the clipped overlaps and hulls agree; a sum over four indices is the four
  terms added left to right.  The one place where finiteness matters is a box's area: for real centre
  `c` and extent `e`, `(c + e/2) - (c - e/2) = e`, which fails at an infinite centre.  For a label word
  in `[0, 257)` the indicator column is `1` exactly at the label's own class, so the sum against it
  picks that class's probability, the same one indexing picks.
-/
import proofs.«408529_j63204738727936_1_alg».proof.Proof.Spec
import Idealize.ShloMosaic.PureOps.Ideal
import Idealize.ShloMosaic.PureOps.Ideal.Laws
import Idealize.ShloMosaic.Lib.ValueIdx
import Idealize.ShloMosaic.Lib.StableHlo.Predicate
import Mathlib.Data.EReal.Basic
import Mathlib.Data.EReal.Operations
import Mathlib.Algebra.BigOperators.Fin
import Mathlib.Tactic.Ring
import Mathlib.Tactic.NormNum

noncomputable section

namespace Cert.MatchCost

open Idealize.ShloMosaic Idealize.ShloMosaic.ValueIdx Cert.MatchCost

/-! ## The literal words -/

/-- The zero word denotes `0`. -/
theorem zeroW_eq : zeroW = 0 := Ideal.ofBits_zero_f32

/-- The word `0x3F000000` denotes the real `1/2`. -/
theorem halfW_eq : halfW = (((1 / 2 : ℝ)) : EReal) := by
  simp [Ideal.ofBits, Ideal.ieee, -EReal.coe_mul]; norm_num

/-- Adding the zero word on the left changes nothing, on every extended real. -/
theorem zeroW_add (s : EReal) : zeroW + s = s := by rw [zeroW_eq, zero_add]

/-- Subtracting from the zero word negates, on every extended real. -/
theorem zeroW_sub (x : EReal) : zeroW - x = -x := by rw [zeroW_eq, sub_eq_add_neg, zero_add]

/-! ## Overlap, hull, distance: commutativity of `max` and a four-term sum -/

theorem overlapK_eq_overlapR (pc pe tc te : EReal) : overlapK pc pe tc te = overlapR pc pe tc te := by
  unfold overlapK overlapR; exact max_comm _ _

theorem hullK_eq_hullR (pc pe tc te : EReal) : hullK pc pe tc te = hullR pc pe tc te := by
  unfold hullK hullR; exact max_comm _ _

theorem interK_eq_interR (p t : Fin 4 → EReal) : interK p t = interR p t := by
  unfold interK interR; rw [overlapK_eq_overlapR, overlapK_eq_overlapR]

theorem encK_eq_encR (p t : Fin 4 → EReal) : encK p t = encR p t := by
  unfold encK encR; rw [hullK_eq_hullR, hullK_eq_hullR]

theorem l1K_eq_l1R (p t : Fin 4 → EReal) : l1K p t = l1R p t := by
  unfold l1K l1R; rw [zeroW_add, Fin.sum_univ_four]

/-! ## Area: the corners of a finite box are its extent apart -/

/-- For a real centre and a real extent the upper corner minus the lower corner is the extent. -/
theorem hi_sub_lo (cr er : ℝ) : hi (cr : EReal) (er : EReal) - lo (cr : EReal) (er : EReal) = (er : EReal) := by
  unfold hi lo
  rw [halfW_eq, ← EReal.coe_mul, ← EReal.coe_add, ← EReal.coe_sub, ← EReal.coe_sub]
  congr 1; ring

theorem areaK_eq_areaR (b : Fin 4 → EReal) (hb : ∀ k, ∃ r : ℝ, b k = (r : EReal)) : areaK b = areaR b := by
  obtain ⟨r0, h0⟩ := hb 0
  obtain ⟨r1, h1⟩ := hb 1
  obtain ⟨r2, h2⟩ := hb 2
  obtain ⟨r3, h3⟩ := hb 3
  unfold areaK areaR
  rw [h0, h1, h2, h3, hi_sub_lo, hi_sub_lo]

theorem unionK_eq_unionR (p t : Fin 4 → EReal) (hp : ∀ k, ∃ r : ℝ, p k = (r : EReal)) (ht : ∀ k, ∃ r : ℝ, t k = (r : EReal)) :
    unionK p t = unionR p t := by
  unfold unionK unionR; rw [areaK_eq_areaR p hp, areaK_eq_areaR t ht, interK_eq_interR]

/-! ## The cost -/

theorem costK_eq_costR (a : EReal) (p t : Fin 4 → EReal) (hp : ∀ k, ∃ r : ℝ, p k = (r : EReal)) (ht : ∀ k, ∃ r : ℝ, t k = (r : EReal)) :
    costK a p t = costR a p t := by
  unfold costK costR
  rw [zeroW_sub, l1K_eq_l1R, unionK_eq_unionR p t hp ht, interK_eq_interR, encK_eq_encR]

/-! ## The class term -/

theorem probK_eq_probR (row : Fin 257 → EReal) (c : Fin 257) : probK row c = probR row c := by
  unfold probK probR; rw [zeroW_add]

/-- A label word whose signed value is in `[0, 257)` has that value as its unsigned value. -/
theorem toNat_of_label (l : BitVec 32) (h0 : 0 ≤ l.toInt) (h1 : l.toInt < 257) : l.toInt = (l.toNat : ℤ) ∧ l.toNat < 257 := by
  have hlt := l.isLt
  rw [BitVec.toInt_eq_toNat_cond] at h0 h1 ⊢
  split at h0 <;> omega

/-- Indexing by such a label selects the class of its unsigned value: the word is not negative, so no shift is
    applied, and it is below the clamp. -/
theorem labelIdx_eq (l : BitVec 32) (h0 : 0 ≤ l.toInt) (h1 : l.toInt < 257) (h : l.toNat < 257) : labelIdx l = ⟨l.toNat, h⟩ := by
  have hneg : IntOp.cmpi .slt l 0#32 = 0#1 := by
    have : l.slt 0#32 = false := by
      simp only [BitVec.slt, BitVec.toInt_zero, decide_eq_false_iff_not, not_lt]; exact h0
    simp only [IntOp.cmpi, this]; rfl
  obtain ⟨hti, _⟩ := toNat_of_label l h0 h1
  unfold labelIdx
  apply Fin.ext
  simp only [hneg, select_zero, hti, Int.toNat_natCast]
  omega

/-- The indicator column of such a label is `1` at the label's class and `0` elsewhere. -/
theorem indicator_eq (l : BitVec 32) (h : l.toNat < 257) (c : Fin 257) :
    indicator l c = if c = ⟨l.toNat, h⟩ then 1 else 0 := by
  unfold indicator
  by_cases hc : c = ⟨l.toNat, h⟩
  · have hv : c.val = l.toNat := by rw [hc]
    have : IntOp.cmpi .eq (BitVec.ofNat 32 c.val) l = 1#1 := by
      rw [StableHlo.Predicate.cmpi_eq_iff, hv, BitVec.ofNat_toNat, BitVec.setWidth_eq]
    rw [this, if_pos hc]; simp
  · have hne : IntOp.cmpi .eq (BitVec.ofNat 32 c.val) l = 0#1 := by
      have hn : ¬ (IntOp.cmpi .eq (BitVec.ofNat 32 c.val) l = 1#1) := by
        rw [StableHlo.Predicate.cmpi_eq_iff]
        intro he
        apply hc
        apply Fin.ext
        have := congrArg BitVec.toNat he
        rw [BitVec.toNat_ofNat] at this
        have hcl := c.isLt
        show c.val = l.toNat
        omega
      generalize IntOp.cmpi .eq (BitVec.ofNat 32 c.val) l = w at hn ⊢
      revert hn; revert w; decide
    rw [hne, if_neg hc]; simp

theorem clsK_eq_clsR (row : Fin 257 → EReal) (l : BitVec 32) (h0 : 0 ≤ l.toInt) (h1 : l.toInt < 257) : clsK row l = clsR row l := by
  obtain ⟨_, h⟩ := toNat_of_label l h0 h1
  unfold clsK clsR
  rw [zeroW_sub, labelIdx_eq l h0 h1 h, ← probK_eq_probR]
  congr 1
  rw [Finset.sum_eq_single (⟨l.toNat, h⟩ : Fin 257)]
  · rw [indicator_eq l h, if_pos rfl, mul_one]
  · intro c _ hc
    rw [indicator_eq l h, if_neg hc, mul_zero]
  · intro hn; exact absurd (Finset.mem_univ _) hn

/-! ## The whole array -/

theorem GK_eq_GR (x0 : SLogits.Idx → EReal) (x1 : SPred.Idx → EReal) (x2 : STgt.Idx → EReal) (x3 : SLab.Idx → BitVec 32)
    (h1 : ∀ i, ∃ r : ℝ, x1 i = (r : EReal)) (h2 : ∀ i, ∃ r : ℝ, x2 i = (r : EReal)) (h3 : ∀ j, 0 ≤ (x3 j).toInt ∧ (x3 j).toInt < 257) :
    GK x0 x1 x2 x3 = GR x0 x1 x2 x3 := by
  funext i
  unfold GK GR
  rw [clsK_eq_clsR _ _ (h3 _).1 (h3 _).2]
  exact costK_eq_costR _ _ _ (fun k => h1 _) (fun k => h2 _)

end Cert.MatchCost

end
-- ==== Proof.PreFacts.lean ====
import proofs.«408529_j63204738727936_1_alg».proof.Pre_finite_inputs
import Idealize.ShloMosaic.Lib.ReduceAll
import Idealize.ShloMosaic.Lib.Affine
import Idealize.ShloMosaic.Lib.ValueIdx
import Idealize.ShloMosaic.PureOps.Ideal
import Mathlib.Data.EReal.Basic

/-!
  What the predicate `finite_inputs` says of its arguments, read back from its value 1.

  The predicate is a conjunction of five `all`-reductions: `|x| < +∞` at every entry of each of the three float
  arrays, and `0 ≤ l` and `l < 257` (signed) at every entry of the integer array. A conjunction of one-bit words
  is 1 exactly when each word is 1; an `and`-reduction over all axes that is 1 met a 1 at every entry; an extended
  real whose absolute value `max x (-x)` lies strictly below `⊤` is neither `⊤` nor `⊥`, hence a real number; and
  the signed comparisons of 32-bit words are the comparisons of their integer values.
-/

noncomputable section

open Idealize.ShloMosaic Idealize.ShloMosaic.ValueIdx

namespace Cert.MatchCost

open Cert.Pre_finite_inputs

/-- The f32 word `0x7F800000` (all-ones exponent, zero fraction, sign clear) denotes `⊤`. -/
private theorem inf_word : Ideal.ofBits .f32 0x7F800000#32 = (⊤ : EReal) := by simp [Ideal.ofBits, Ideal.ieee]

/-- An extended real whose absolute value `max x (-x)` lies strictly below `+∞` is a real number:
    at `⊤` the maximum is `⊤`, at `⊥` it is `-⊥ = ⊤`, and `⊤ < ⊤` fails. -/
private theorem real_of_abs_lt_top (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

/-- The 32-bit words 0 and 257 as signed integers. -/
private theorem toInt_word_zero : (0#32 : BitVec 32).toInt = 0 := by decide
private theorem toInt_word_257 : (257#32 : BitVec 32).toInt = 257 := by decide

/-- Where `finite_inputs` holds, the two box arrays hold real numbers and every label lies in `[0, 257)`. -/
theorem pre_facts [Cert.Pre_finite_inputs.Facts] (x0 : FVec Ideal Cert.Pre_finite_inputs.S16x900x257 .f32) (x1 : FVec Ideal Cert.Pre_finite_inputs.S16x900x4 .f32)
    (x2 : FVec Ideal Cert.Pre_finite_inputs.S16x128x4 .f32) (x3 : IVec Cert.Pre_finite_inputs.S16x128 32)
    (h : Cert.Pre_finite_inputs.fn (F := Ideal) x0 x1 x2 x3 = fun _ => 1#1) :
    (∀ i, ∃ r : ℝ, x1 i = (r : EReal)) ∧ (∀ i, ∃ r : ℝ, x2 i = (r : EReal)) ∧ (∀ j, 0 ≤ (x3 j).toInt ∧ (x3 j).toInt < 257) := by
  -- the rank-0 shape has exactly one index
  haveI : Subsingleton S_.Idx := ⟨fun a b => funext fun d => d.elim0⟩
  -- the predicate's value at that one index, with its chain of operations in view
  have h0 := congrFun h ValueIdx.ix0
  dsimp only [fn, fn_part1] at h0
  -- a conjunction of one-bit words is 1 only if both words are: peel the five conjuncts off, outermost first
  obtain ⟨h1, hlt⟩ := IntOp.andi_eq_one.1 (show IntOp.andi _ _ = 1#1 from h0)
  obtain ⟨h2, hge⟩ := IntOp.andi_eq_one.1 (show IntOp.andi _ _ = 1#1 from h1)
  obtain ⟨h3, hx2⟩ := IntOp.andi_eq_one.1 (show IntOp.andi _ _ = 1#1 from h2)
  obtain ⟨_, hx1⟩ := IntOp.andi_eq_one.1 (show IntOp.andi _ _ = 1#1 from h3)
  refine ⟨fun i => ?_, fun i => ?_, fun j => ⟨?_, ?_⟩⟩
  -- each `all` gives its comparison at the entry asked for; `|x| < +∞` makes the entry real
  · exact real_of_abs_lt_top (x1 i) (Host.reduce_andi_all _ _ _ _ _ hx1 i)
  · exact real_of_abs_lt_top (x2 i) (Host.reduce_andi_all _ _ _ _ _ hx2 i)
  -- signed `l ≥ 0` against the broadcast word 0
  · have e : (0#32 : BitVec 32).toInt ≤ (x3 j).toInt := IntOp.cmpi_sge.1 (Host.reduce_andi_all _ _ _ _ _ hge j)
    rw [toInt_word_zero] at e
    exact e
  -- signed `l < 257` against the broadcast word 257
  · have e : (x3 j).toInt < (257#32 : BitVec 32).toInt := IntOp.cmpi_slt.1 (Host.reduce_andi_all _ _ _ _ _ hlt j)
    rw [toInt_word_257] at e
    exact e

end Cert.MatchCost
-- ==== Proof.KernelClass.lean ====
/-
  The class term of the matching cost, read at one (query, target) pair.

  A block of 900 query rows of 257 logits is turned row by row into softmax probabilities: the row maximum
  `M` is the fold of `max` from `-∞` over the row, joined with `-∞` once more; each entry becomes
  `exp (x c - M)`; the row's normaliser is the bare sum of these; the probability is their quotient. The
  narrowing to sixteen bits is the identity on the extended reals. The probabilities are then contracted over
  the 257 classes against a `257 × 128` block of indicator columns into a zero accumulator, and the result is
  subtracted from zero. At `(q, t)` this is `0 - Σ_c prob_q(c) · col_t(c)`.

  The steps: a vector cast to a column and a column spread along the rows read their one entry; a lane
  maximum and a lane sum over the second axis read the fold and the sum over the row's coordinates; the
  contraction reads the sum over its one contracted coordinate, re-indexed by that coordinate.
-/
import proofs.«408529_j63204738727936_1_alg».proof.Proof.Gen.KernelIdeal.Skeleton
import proofs.«408529_j63204738727936_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.ClassTerm

open Idealize.ShloMosaic Idealize.ShloMosaic.ValueIdx Cert.MatchCost Cert.KernelIdeal Cert.KernelIdeal.Gen

/-! ## Layout: the column forms of a row statistic -/

section Layout
variable {α : Type}

/-- A vector of `a` entries cast to one column reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast along the rows reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's reductions -/

/-- Row `q` with column `k` put back is `(q, k)`. -/
theorem lift_row (h : S900x257.Reduces [1] S900) (q : Fin 900) (k : Fin (S900x257.size 1)) :
    h.lift (ix1 q) k = ix2 q (⟨k.val, k.isLt⟩ : Fin 257) := by
  funext c; apply Fin.ext
  fin_cases c <;> rfl

/-- The lane maximum of row `q`, from `-∞`: the fold of `max` over the row's 257 entries. -/
theorem rowMax_read (x : FVec Ideal S900x257 .f32) (h : S900x257.Reduces [1] S900) (hφ : FKind.Formats .f32)
    (hacc : (0xFF800000#32 : BitVec 32) = 0xFF800000#32) (q : Fin 900) :
    multiReduction (F := Ideal) .maximumf [1] S900 x 0xFF800000#32 h hφ hacc (ix1 q)
      = (Finset.univ : Finset (Fin 257)).fold max negInfW (fun c => x (ix2 q c)) := by
  refine (Ideal.multiReduction_maximumf_single x 0xFF800000#32 h hφ hacc (ix1 q)).trans ?_
  have hf : (x ∘ h.lift (ix1 q)) = fun c : Fin 257 => x (ix2 q c) := funext fun k => congrArg x (lift_row h q k)
  exact congrArg (fun f => Finset.fold max (Ideal.ofBits .f32 0xFF800000#32) f (Finset.univ : Finset (Fin 257))) hf

/-- The lane sum of row `q`: the sum of the row's 257 entries. -/
theorem rowSum_read (x : FVec Ideal S900x257 .f32) (h : S900x257.Reduces [1] S900) (hφ : FKind.Formats .f32)
    (hacc : (0x00000000#32 : BitVec 32) = 0x00000000#32) (q : Fin 900) :
    multiReduction (F := Ideal) .add [1] S900 x 0x00000000#32 h hφ hacc (ix1 q) = ∑ c : Fin 257, x (ix2 q c) := by
  refine (Ideal.multiReduction_add_single x 0x00000000#32 h hφ hacc (ix1 q)).trans ?_
  exact Finset.sum_congr rfl fun k _ => congrArg x (lift_row h q k)

/-! ## The contraction over the 257 classes -/

/-- The row operand's row coordinate is the output's. -/
theorem lhs_dot_0 (i : S900x128.Idx) (q : dot_S900x257_S257x128_S900x128_1_0_0_1_n_n.contr.Idx) :
    (dot_S900x257_S257x128_S900x128_1_0_0_1_n_n.lhsIdx i q 0).val = (i 0).val := by
  unfold DotDims.lhsIdx
  rw [dif_neg (show ¬(0 : Fin S900x257.rank) ∈ dot_S900x257_S257x128_S900x128_1_0_0_1_n_n.lhsBatch by decide), dif_pos (show (0 : Fin S900x257.rank) ∈ dot_S900x257_S257x128_S900x128_1_0_0_1_n_n.lhsNonContracting by decide)]
  rfl

/-- The row operand's column coordinate is the contracted one. -/
theorem lhs_dot_1 (i : S900x128.Idx) (q : dot_S900x257_S257x128_S900x128_1_0_0_1_n_n.contr.Idx) :
    (dot_S900x257_S257x128_S900x128_1_0_0_1_n_n.lhsIdx i q 1).val = (q ⟨0, by decide⟩).val :=
  dot_S900x257_S257x128_S900x128_1_0_0_1_n_n.lhsIdx_val_of_single rfl i q

/-- The column operand's row coordinate is the contracted one. -/
theorem rhs_dot_0 (i : S900x128.Idx) (q : dot_S900x257_S257x128_S900x128_1_0_0_1_n_n.contr.Idx) :
    (dot_S900x257_S257x128_S900x128_1_0_0_1_n_n.rhsIdx i q 0).val = (q ⟨0, by decide⟩).val :=
  dot_S900x257_S257x128_S900x128_1_0_0_1_n_n.rhsIdx_val_of_single rfl i q

/-- The column operand's column coordinate is the output's. -/
theorem rhs_dot_1 (i : S900x128.Idx) (q : dot_S900x257_S257x128_S900x128_1_0_0_1_n_n.contr.Idx) :
    (dot_S900x257_S257x128_S900x128_1_0_0_1_n_n.rhsIdx i q 1).val = (i 1).val := by
  unfold DotDims.rhsIdx
  rw [dif_neg (show ¬(1 : Fin S257x128.rank) ∈ dot_S900x257_S257x128_S900x128_1_0_0_1_n_n.rhsBatch by decide), dif_pos (show (1 : Fin S257x128.rank) ∈ dot_S900x257_S257x128_S900x128_1_0_0_1_n_n.rhsNonContracting by decide)]
  rfl

/-- The product into a zero accumulator, at `(q, t)`: the sum over the classes of row `q` against column `t`. -/
theorem matmul_read (A : FVec Ideal S900x257 .bf16) (B : FVec Ideal S257x128 .bf16) (q : Fin 900) (t : Fin 128) :
    matmul dot_S900x257_S257x128_S900x128_1_0_0_1_n_n none A B (constant (F := Ideal) S900x128 .f32 0x00000000#32) (ix2 q t)
      = ∑ c : Fin 257, A (ix2 q c) * B (ix2 c t) := by
  simp only [matmul]
  rw [Ideal.matmul_constant_zero_apply, ← Equiv.sum_comp (contrEquiv1 dot_S900x257_S257x128_S900x128_1_0_0_1_n_n 257 rfl rfl).symm]
  refine Finset.sum_congr rfl fun k _ => ?_
  have hk := contrEquiv1_symm_val dot_S900x257_S257x128_S900x128_1_0_0_1_n_n 257 rfl rfl k
  have el : dot_S900x257_S257x128_S900x128_1_0_0_1_n_n.lhsIdx (ix2 q t) ((contrEquiv1 dot_S900x257_S257x128_S900x128_1_0_0_1_n_n 257 rfl rfl).symm k) = ix2 q k := funext fun a => Fin.ext (by
    match a with
    | ⟨0, _⟩ => exact lhs_dot_0 _ _
    | ⟨1, _⟩ => exact (lhs_dot_1 _ _).trans hk)
  have er : dot_S900x257_S257x128_S900x128_1_0_0_1_n_n.rhsIdx (ix2 q t) ((contrEquiv1 dot_S900x257_S257x128_S900x128_1_0_0_1_n_n 257 rfl rfl).symm k) = ix2 k t := funext fun a => Fin.ext (by
    match a with
    | ⟨0, _⟩ => exact (rhs_dot_0 _ _).trans hk
    | ⟨1, _⟩ => exact rhs_dot_1 _ _)
  rw [el, er]

/-! ## The class payload at an index -/

/-- Row `q`'s entry `c` less the row's maximum (folded from `-∞` and joined with `-∞` once more), exponentiated. -/
theorem expShift_read (X : FVec Ideal S900x257 .f32) (hφ : FKind.Formats .f32)
    (hacc : (0xFF800000#32 : BitVec 32) = 0xFF800000#32) (q : Fin 900) (c : Fin 257) :
    exp (subf X (broadcastTo S900x257 (shapeCast S900x1 (maximumf (broadcast S900 (FloatOps.ofBits (F := Ideal) .f32 0xFF800000#32))
        (multiReduction (F := Ideal) .maximumf [1] S900 X 0xFF800000#32 reduces_S900x257_S900 hφ hacc)) shapeCasts_S900_S900x1)
        broadcasts_S900x1_S900x257)) (ix2 q c)
      = expShift (fun c => X (ix2 q c)) c := by
  unfold expShift rowMax
  show Ideal.exp (subf X _ (ix2 q c)) = _
  rw [subf_apply, broadcastTo_a1_ab_apply, shapeCast_a_a1_apply, maximumf_apply, broadcast_apply, rowMax_read]
  rfl

/-- The shifted exponentials of row `q` divided by their lane sum, spread back along the row: the softmax probability. -/
theorem prob_read (X : FVec Ideal S900x257 .f32) (hφ : FKind.Formats .f32)
    (hacc : (0xFF800000#32 : BitVec 32) = 0xFF800000#32) (hacc0 : (0x00000000#32 : BitVec 32) = 0x00000000#32)
    (q : Fin 900) (c : Fin 257) :
    divf (exp (subf X (broadcastTo S900x257 (shapeCast S900x1 (maximumf (broadcast S900 (FloatOps.ofBits (F := Ideal) .f32 0xFF800000#32))
        (multiReduction (F := Ideal) .maximumf [1] S900 X 0xFF800000#32 reduces_S900x257_S900 hφ hacc)) shapeCasts_S900_S900x1)
        broadcasts_S900x1_S900x257)))
      (broadcastTo S900x257 (shapeCast S900x1 (multiReduction (F := Ideal) .add [1] S900
        (exp (subf X (broadcastTo S900x257 (shapeCast S900x1 (maximumf (broadcast S900 (FloatOps.ofBits (F := Ideal) .f32 0xFF800000#32))
        (multiReduction (F := Ideal) .maximumf [1] S900 X 0xFF800000#32 reduces_S900x257_S900 hφ hacc)) shapeCasts_S900_S900x1)
        broadcasts_S900x1_S900x257))) 0x00000000#32 reduces_S900x257_S900 hφ hacc0) shapeCasts_S900_S900x1)
        broadcasts_S900x1_S900x257) (ix2 q c)
      = probK (fun c => X (ix2 q c)) c := by
  unfold probK
  rw [divf_apply, broadcastTo_a1_ab_apply, shapeCast_a_a1_apply, rowSum_read, expShift_read]
  exact congrArg (Ideal.div _) (Finset.sum_congr rfl fun c' _ => expShift_read X hφ hacc q c')

/-- The kernel's class term at `(q, t)`: zero minus the sum, over the classes, of the softmax probability of row `q`
    against the indicator block's column `t`. -/
theorem pay2_apply (P0 : Vec Ideal S1x900x257 .f32) (P1 : Vec Ideal S1x257x128 .f32) (q : Fin 900) (t : Fin 128) :
    k0_pay2 (F := Ideal) P0 P1 (ix2 q t) = zeroW - ∑ c : Fin 257, probK (fun c => P0 (ix3 0 q c)) c * P1 (ix3 0 c t) := by
  have hrow : (fun c : Fin 257 => shapeCast S900x257 P0 shapeCasts_S1x900x257_S900x257 (ix2 q c)) = fun c => P0 (ix3 0 q c) :=
    funext fun c => shapeCast_1ab_ab_apply P0 _ q c
  unfold k0_pay2
  rw [subf_apply, broadcast_apply, matmul_read]
  refine congrArg (fun s => zeroW - s) (Finset.sum_congr rfl fun c _ => ?_)
  rw [truncf_apply, truncf_apply, shapeCast_1ab_ab_apply, prob_read]
  exact congrArg (fun r => probK r c * P1 (ix3 0 c t)) hrow

end Cert.KernelIdeal.ClassTerm

end
-- ==== Proof.KernelHost.lean ====
import proofs.«408529_j63204738727936_1_alg».proof.Proof.Gen.KernelIdeal.Frame
import proofs.«408529_j63204738727936_1_alg».proof.Proof.Spec
import Idealize.ShloMosaic.Lib.StableHlo.Run
import Idealize.ShloMosaic.Lib.Pipeline.Value
import Idealize.ShloMosaic.Lib.ValueIdx
import Idealize.ShloMosaic.PureOps.Ideal

/-!
  What the region's fourth operand holds.

  Before the region the program builds an array of shape 16 × 257 × 128 from the label words
  `x3 : 16 × 128`: a column of class numbers `0, 1, …, 256` is spread along the first and last axes, the
  labels are spread along the middle axis, the two are compared for equality word by word (class number
  on the left, label on the right), and the one-bit answer is converted to a float as the natural number
  it reads.  Read at `(b, cl, t)` the array is therefore the indicator column of the label `x3 (b, t)` at
  class `cl`.
-/

noncomputable section

namespace Cert.KernelIdeal.HostPart

open Idealize.ShloMosaic Idealize.ShloMosaic.ValueIdx Cert.MatchCost
open Cert.KernelIdeal Cert.KernelIdeal.Gen
open Idealize.ShloMosaic.StableHlo Idealize.ShloMosaic.TcCoe

/-- The class numbers `0 … 256` spread to 16 × 257 × 128 (along a new trailing unit axis, a new leading unit
    axis, then both unit axes widened). -/
abbrev classArr : S16x257x128.Idx → BitVec 32 :=
  broadcastInDim S16x257x128 (![0, 1, 2] : Fin 3 → Fin S16x257x128.rank) Facts₀.bcast_S1x257x1_S16x257x128_0_1_2
    (broadcastInDim S1x257x1 (![1, 2] : Fin 2 → Fin S1x257x1.rank) Facts₀.bcast_S257x1_S1x257x1_1_2
      (broadcastInDim S257x1 (![0] : Fin 1 → Fin S257x1.rank) Facts₀.bcast_S257_S257x1_0 (iotaInDim S257 32 0)))

/-- The labels spread to 16 × 257 × 128 (along a new middle unit axis, then that axis widened). -/
abbrev labelArr (x : S16x128.Idx → BitVec 32) : S16x257x128.Idx → BitVec 32 :=
  broadcastInDim S16x257x128 (![0, 1, 2] : Fin 3 → Fin S16x257x128.rank) Facts₀.bcast_S16x1x128_S16x257x128_0_1_2
    (broadcastInDim S16x1x128 (![0, 2] : Fin 2 → Fin S16x1x128.rank) Facts₀.bcast_S16x128_S16x1x128_0_2 x)

/-- The array the region finds is the conversion of the comparison of the two spread arrays: each host
    operation's result read at its own buffer, the label array as launched. -/
theorem onehot_term (m : (ℓ : Loc nD τ sig) → Buf (Elt Ideal) ℓ) (c : Dev nD) :
    (V (F := Ideal) m c main_v7 : S16x257x128.Idx → EReal)
      = uitofp (F := Ideal) .f32 (cmpi .eq classArr (labelArr (m ((c : Thread nD τ).loc main_arg3)))) := by
  dsimp only [Gen.V, Gen.hostOps0]
  after_results

/-- The spread class numbers at `(b, cl, t)`: the word of `cl`. Every axis the spreading reads is a literal,
    so the coordinates compute. -/
theorem classArr_apply (b : Fin 16) (cl : Fin 257) (t : Fin 128) :
    classArr (ix3 b cl t) = BitVec.ofNat 32 cl.val := rfl

/-- The spread labels at `(b, cl, t)`: the label at `(b, t)`. The middle axis has extent one in the
    intermediate array and is read at `0`; the outer axes are read at `b` and `t`. -/
theorem labelArr_apply (x : S16x128.Idx → BitVec 32) (b : Fin 16) (cl : Fin 257) (t : Fin 128) :
    labelArr x (ix3 b cl t) = x (ix2 b t) := by
  refine (broadcastInDim_apply (![0, 1, 2] : Fin 3 → Fin S16x257x128.rank) Facts₀.bcast_S16x1x128_S16x257x128_0_1_2 _
    (ix3 b cl t) (ix3 b (0 : Fin 1) t) ?_).trans ?_
  · intro a
    match a with
    | ⟨0, _⟩ => rfl
    | ⟨1, _⟩ => rfl
    | ⟨2, _⟩ => rfl
  · refine broadcastInDim_apply (![0, 2] : Fin 2 → Fin S16x1x128.rank) Facts₀.bcast_S16x128_S16x1x128_0_2 x
      (ix3 b (0 : Fin 1) t) (ix2 b t) ?_
    intro a
    match a with
    | ⟨0, _⟩ => rfl
    | ⟨1, _⟩ => rfl

/-- The region's fourth operand at `(b, cl, t)` is the indicator of the label `(b, t)` at class `cl`: the
    conversion and the comparison act word by word, with the class number as the comparison's left operand. -/
theorem onehot_read (m : (ℓ : Loc nD τ sig) → Buf (Elt Ideal) ℓ) (c : Dev nD) (b : Fin 16) (cl : Fin 257) (t : Fin 128) :
    (V (F := Ideal) m c main_v7 : S16x257x128.Idx → EReal) (ix3 b cl t) = indicator (m ((c : Thread nD τ).loc main_arg3) (ix2 b t)) cl := by
  rw [onehot_term]
  exact congrArg₂ (fun u v : BitVec 32 => (((IntOp.cmpi .eq u v).toNat : ℝ) : EReal))
    (classArr_apply b cl t) (labelArr_apply (m ((c : Thread nD τ).loc main_arg3)) b cl t)

end Cert.KernelIdeal.HostPart

end
-- ==== Proof.KernelValue.lean ====
/-
  From the kernel's blocks to the whole cost array.

  The grid has one point per image.  At point `t` the kernel reads image `t`'s slab of the logits, of the predicted
  boxes, of the target boxes and of the label indicator, and writes image `t`'s slab `[1, 900, 128]` of the result.
  The block it writes is one index-by-index function of the slabs it read: at (query, target) it is the matching cost
  of the class term read at (query, target), the predicted box read at (0, query, ·) and the target box read at
  (0, target, ·).  The class term is the softmax row of the query summed against the indicator column of the target's
  label and subtracted from zero; the indicator column is what the operations before the kernel put into the
  indicator array.  The sixteen slabs tile the result, so after the run it is the cost array of the arguments, entry
  by entry.
-/
import proofs.«408529_j63204738727936_1_alg».proof.Proof.ValuePatched
import proofs.«408529_j63204738727936_1_alg».proof.Proof.Spec
import Idealize.ShloMosaic.Lib.Pipeline.Value
import Idealize.ShloMosaic.Lib.ValueIdx
import Idealize.ShloMosaic.PureOps.Ideal.Laws

noncomputable section

namespace Cert.KernelIdeal.CostValue

open Cert.KernelIdeal Cert.KernelIdeal.Gen Cert.KernelIdeal.Value Idealize.ShloMosaic Idealize.ShloMosaic.ValueIdx Idealize.ShloMosaic.TcCoe Idealize.SL.Sem Cert.MatchCost
open Idealize.ShloMosaic.Pipeline (Dat)

/-! ## The body's layout operations read at a point -/

theorem hz3 : (![0, 0, 0] : Fin 3 → Nat) = fun _ => 0 := funext fun a => by fin_cases a <;> rfl

/-- The result's leading unit axis: entry (0, query, target) of the block is entry (query, target) of the table. -/
theorem cast_read (v : FVec Ideal S900x128 .f32) (a : Fin 1) (q : Fin 900) (s : Fin 128) :
    shapeCast S1x900x128 v shapeCasts_S900x128_S1x900x128 (ix3 a q s) = v (ix2 q s) :=
  shapeCast_apply v _ (ix3 a q s) (ix2 q s) (by
    rw [Shape.rowMajor_val_two, Shape.rowMajor_val_three]
    show q.val * 128 + s.val = (a.val * 900 + q.val) * 128 + s.val
    have := a.isLt; omega)

/-- A per-query column spread over the targets is read at its query. -/
theorem row_read (v : FVec Ideal S900x1 .f32) (q : Fin 900) (s : Fin 128) :
    broadcastTo S900x128 v broadcasts_S900x1_S900x128 (ix2 q s) = v (ix2 q 0) :=
  broadcastTo_apply v _ (ix2 q s) (ix2 q 0) (fun a => match a with
    | ⟨0, _⟩ => by show q.val = (if (900 : Nat) = 1 then 0 else q.val); rw [if_neg (by decide)]
    | ⟨1, _⟩ => by show 0 = (if (1 : Nat) = 1 then 0 else s.val); rw [if_pos rfl])

/-- A per-target row spread over the queries is read at its target. -/
theorem col_read (v : FVec Ideal S1x128 .f32) (q : Fin 900) (s : Fin 128) :
    broadcastTo S900x128 v broadcasts_S1x128_S900x128 (ix2 q s) = v (ix2 0 s) :=
  broadcastTo_apply v _ (ix2 q s) (ix2 0 s) (fun a => match a with
    | ⟨0, _⟩ => by show 0 = (if (1 : Nat) = 1 then 0 else q.val); rw [if_pos rfl]
    | ⟨1, _⟩ => by show s.val = (if (128 : Nat) = 1 then 0 else s.val); rw [if_neg (by decide)])

/-- Column `k` of the predicted boxes, as a `[900, 1]` column, at query `q` is component `k` of that query's box. -/
theorem pred_comp (P : Vec Ideal S1x900x4 .f32) (off : Fin 2 → Nat) (h : S900x4.Slices off S900x1) (k : Fin 4)
    (h0 : off 0 = 0) (h1 : off 1 = k.val) (q : Fin 900) :
    extractStridedSlice S900x1 off (shapeCast S900x4 P shapeCasts_S1x900x4_S900x4) h (ix2 q 0) = P (ix3 0 q k) := by
  refine (extractStridedSlice_apply off _ h (ix2 q 0) (ix2 q k) (fun a => match a with
    | ⟨0, _⟩ => by show q.val = off 0 + q.val; omega
    | ⟨1, _⟩ => by show k.val = off 1 + 0; omega)).trans ?_
  exact shapeCast_apply P _ (ix2 q k) (ix3 0 q k) (by
    rw [Shape.rowMajor_val_three, Shape.rowMajor_val_two]
    show (0 * 900 + q.val) * 4 + k.val = q.val * 4 + k.val
    omega)

/-- Row `k` of the transposed target boxes, as a `[1, 128]` row, at target `s` is component `k` of that target's box. -/
theorem tgt_comp (P : Vec Ideal S1x128x4 .f32) (off : Fin 2 → Nat) (h : S4x128.Slices off S1x128) (k : Fin 4)
    (h0 : off 0 = k.val) (h1 : off 1 = 0) (s : Fin 128) :
    extractStridedSlice S1x128 off (transpose S4x128 [1, 0] (shapeCast S128x4 P shapeCasts_S1x128x4_S128x4) transposes_S128x4_p1_0_S4x128) h (ix2 0 s)
      = P (ix3 0 s k) := by
  refine (extractStridedSlice_apply off _ h (ix2 0 s) (ix2 k s) (fun a => match a with
    | ⟨0, _⟩ => by show k.val = off 0 + 0; omega
    | ⟨1, _⟩ => by show s.val = off 1 + s.val; omega)).trans ?_
  refine (transpose_apply [1, 0] _ _ (ix2 k s) (ix2 s k) (fun b => match b with
    | ⟨0, _⟩ => by show k.val = k.val; rfl
    | ⟨1, _⟩ => by show s.val = s.val; rfl)).trans ?_
  exact shapeCast_apply P _ (ix2 s k) (ix3 0 s k) (by
    rw [Shape.rowMajor_val_three, Shape.rowMajor_val_two]
    show (0 * 128 + s.val) * 4 + k.val = s.val * 4 + k.val
    omega)

theorem pred_comp0 (P : Vec Ideal S1x900x4 .f32) (q : Fin 900) : k0_pay5 (F := Ideal) P (ix2 q 0) = P (ix3 0 q 0) :=
  pred_comp P ![0, 0] slices_S900x4_o0_0_S900x1 0 rfl rfl q
theorem pred_comp1 (P : Vec Ideal S1x900x4 .f32) (q : Fin 900) : k0_pay6 (F := Ideal) P (ix2 q 0) = P (ix3 0 q 1) :=
  pred_comp P ![0, 1] slices_S900x4_o0_1_S900x1 1 rfl rfl q
theorem pred_comp2 (P : Vec Ideal S1x900x4 .f32) (q : Fin 900) : k0_pay7 (F := Ideal) P (ix2 q 0) = P (ix3 0 q 2) :=
  pred_comp P ![0, 2] slices_S900x4_o0_2_S900x1 2 rfl rfl q
theorem pred_comp3 (P : Vec Ideal S1x900x4 .f32) (q : Fin 900) : k0_pay8 (F := Ideal) P (ix2 q 0) = P (ix3 0 q 3) :=
  pred_comp P ![0, 3] slices_S900x4_o0_3_S900x1 3 rfl rfl q

theorem tgt_comp0 (P : Vec Ideal S1x128x4 .f32) (s : Fin 128) : k0_pay9 (F := Ideal) P (ix2 0 s) = P (ix3 0 s 0) :=
  tgt_comp P ![0, 0] slices_S4x128_o0_0_S1x128 0 rfl rfl s
theorem tgt_comp1 (P : Vec Ideal S1x128x4 .f32) (s : Fin 128) : k0_pay10 (F := Ideal) P (ix2 0 s) = P (ix3 0 s 1) :=
  tgt_comp P ![1, 0] slices_S4x128_o1_0_S1x128 1 rfl rfl s
theorem tgt_comp2 (P : Vec Ideal S1x128x4 .f32) (s : Fin 128) : k0_pay11 (F := Ideal) P (ix2 0 s) = P (ix3 0 s 2) :=
  tgt_comp P ![2, 0] slices_S4x128_o2_0_S1x128 2 rfl rfl s
theorem tgt_comp3 (P : Vec Ideal S1x128x4 .f32) (s : Fin 128) : k0_pay12 (F := Ideal) P (ix2 0 s) = P (ix3 0 s 3) :=
  tgt_comp P ![3, 0] slices_S4x128_o3_0_S1x128 3 rfl rfl s

/-- An absolute value at an index is the larger of the element and its negation. -/
theorem absf_read {s : Shape} (v : FVec Ideal s .f32) (i : s.Idx) : absf v i = max (v i) (-(v i)) := rfl

/-! ## The block's value at a point is the matching cost -/

/-- What the body leaves in the result's block, at (0, query, target): the cost of the class term there, of the query's
    predicted box and of the target's box.  The one store covers the block; under the leading unit axis the stored
    table is a tree of sums, products, quotients, maxima and minima of columns spread over targets and rows spread over
    queries, each a box component read as above. -/
theorem out_at (x0 : Vec Ideal S1x900x257 .f32) (x1 : Vec Ideal S1x900x4 .f32) (x2 : Vec Ideal S1x128x4 .f32) (x3 : Vec Ideal S1x257x128 .f32)
    (a : Fin 1) (q : Fin 900) (s : Fin 128) :
    out0_4 (F := Ideal) x0 x1 x2 x3 (ix3 a q s)
      = costK ((k0_pay2 (F := Ideal) x0 x3) (ix2 q s)) (fun k => x1 (ix3 0 q k)) (fun k => x2 (ix3 0 s k)) := by
  unfold out0_4
  rw [View.canon_unit_zero hz3]
  simp only [View.ld_unit_zero (S := S1x900x257) hz3, View.ld_unit_zero (S := S1x900x4) hz3, View.ld_unit_zero (S := S1x128x4) hz3, View.ld_unit_zero (S := S1x257x128) hz3]
  unfold k0_pay1
  refine (cast_read _ a q s).trans ?_
  simp only [k0_pay13, k0_pay14, k0_pay15, k0_pay16, k0_pay17, k0_pay18, k0_pay19, k0_pay20, k0_pay21, k0_pay22, k0_pay23, k0_pay24,
    k0_pay25, k0_pay26, k0_pay27, addf_apply, subf_apply, mulf_apply, divf_apply, maximumf_apply, minimumf_apply, absf_read,
    broadcast_apply, row_read, col_read, pred_comp0, pred_comp1, pred_comp2, pred_comp3, tgt_comp0, tgt_comp1, tgt_comp2, tgt_comp3]
  rfl

/-! ## The windows' blocks as rows of the arrays -/

/-- The image a grid point works on. -/
abbrev img (t : Fin cfg0.N) : Fin 16 := ⟨t.val, Nat.lt_of_lt_of_eq t.isLt N_0⟩

/-- At point `t` every window's block index is `(t, 0, 0)`: the grid walks the images, and a block is one image's
    whole slab (decided over the 16 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The logits block at point `t` is image `t`'s rows of the logits. -/
theorem logits_block (m : (ℓ : Loc nD τ sig) → Buf (Elt Ideal) ℓ) (c : Dev nD) (t : Fin cfg0.N) (q : Fin 900) (k : Fin 257) :
    (iblk (F := Ideal) m c 0 t : Vec Ideal S1x900x257 .f32) (ix3 0 q k)
      = (m ((c : Thread nD τ).loc main_arg0) : S16x900x257.Idx → EReal) (ix3 (img t) q k) := by
  obtain ⟨⟨e0, e1, e2⟩, -⟩ := idx_facts t
  unfold iblk
  rw [View.read_apply]
  show V m c main_arg0 _ = _
  rw [V_main_arg0]
  congr 1
  funext d; apply Fin.ext
  match d with
  | ⟨0, _⟩ => show win0_0.index t (0 : Fin 3) * 1 + 1 * 0 = t.val; omega
  | ⟨1, _⟩ => show win0_0.index t (1 : Fin 3) * 900 + 1 * q.val = q.val; omega
  | ⟨2, _⟩ => show win0_0.index t (2 : Fin 3) * 257 + 1 * k.val = k.val; omega

/-- The predicted-box block at point `t` is image `t`'s predicted boxes. -/
theorem pred_block (m : (ℓ : Loc nD τ sig) → Buf (Elt Ideal) ℓ) (c : Dev nD) (t : Fin cfg0.N) (q : Fin 900) (k : Fin 4) :
    (iblk (F := Ideal) m c 1 t : Vec Ideal S1x900x4 .f32) (ix3 0 q k)
      = (m ((c : Thread nD τ).loc main_arg1) : S16x900x4.Idx → EReal) (ix3 (img t) q k) := by
  obtain ⟨-, ⟨e0, e1, e2⟩, -⟩ := idx_facts t
  unfold iblk
  rw [View.read_apply]
  show V m c main_arg1 _ = _
  rw [V_main_arg1]
  congr 1
  funext d; apply Fin.ext
  match d with
  | ⟨0, _⟩ => show win0_1.index t (0 : Fin 3) * 1 + 1 * 0 = t.val; omega
  | ⟨1, _⟩ => show win0_1.index t (1 : Fin 3) * 900 + 1 * q.val = q.val; omega
  | ⟨2, _⟩ => show win0_1.index t (2 : Fin 3) * 4 + 1 * k.val = k.val; omega

/-- The target-box block at point `t` is image `t`'s target boxes. -/
theorem tgt_block (m : (ℓ : Loc nD τ sig) → Buf (Elt Ideal) ℓ) (c : Dev nD) (t : Fin cfg0.N) (s : Fin 128) (k : Fin 4) :
    (iblk (F := Ideal) m c 2 t : Vec Ideal S1x128x4 .f32) (ix3 0 s k)
      = (m ((c : Thread nD τ).loc main_arg2) : S16x128x4.Idx → EReal) (ix3 (img t) s k) := by
  obtain ⟨-, -, ⟨e0, e1, e2⟩, -⟩ := idx_facts t
  unfold iblk
  rw [View.read_apply]
  show V m c main_arg2 _ = _
  rw [V_main_arg2]
  congr 1
  funext d; apply Fin.ext
  match d with
  | ⟨0, _⟩ => show win0_2.index t (0 : Fin 3) * 1 + 1 * 0 = t.val; omega
  | ⟨1, _⟩ => show win0_2.index t (1 : Fin 3) * 128 + 1 * s.val = s.val; omega
  | ⟨2, _⟩ => show win0_2.index t (2 : Fin 3) * 4 + 1 * k.val = k.val; omega

/-- The indicator block at point `t` is image `t`'s slab of the indicator array the region finds. -/
theorem onehot_block (m : (ℓ : Loc nD τ sig) → Buf (Elt Ideal) ℓ) (c : Dev nD) (t : Fin cfg0.N) (cl : Fin 257) (s : Fin 128) :
    (iblk (F := Ideal) m c 3 t : Vec Ideal S1x257x128 .f32) (ix3 0 cl s)
      = (V (F := Ideal) m c main_v7 : S16x257x128.Idx → EReal) (ix3 (img t) cl s) := by
  obtain ⟨-, -, -, ⟨e0, e1, e2⟩, -⟩ := idx_facts t
  unfold iblk
  rw [View.read_apply]
  show V m c main_v7 _ = _
  congr 1
  funext d; apply Fin.ext
  match d with
  | ⟨0, _⟩ => show win0_3.index t (0 : Fin 3) * 1 + 1 * 0 = t.val; omega
  | ⟨1, _⟩ => show win0_3.index t (1 : Fin 3) * 257 + 1 * cl.val = cl.val; omega
  | ⟨2, _⟩ => show win0_3.index t (2 : Fin 3) * 128 + 1 * s.val = s.val; omega

/-! ## What a point writes back -/

/-- At point `t` the class term at (query, target) is the softmax row of image `t`'s query summed against the indicator column
    of its target's label, subtracted from zero. -/
theorem class_value (hpay : ∀ (P0 : Vec Ideal S1x900x257 .f32) (P1 : Vec Ideal S1x257x128 .f32) (q : Fin 900) (t : Fin 128),
      k0_pay2 (F := Ideal) P0 P1 (ix2 q t) = zeroW - ∑ c : Fin 257, probK (fun c => P0 (ix3 0 q c)) c * P1 (ix3 0 c t))
    (hoh : ∀ (m : (ℓ : Loc nD τ sig) → Buf (Elt Ideal) ℓ) (c : Dev nD) (b : Fin 16) (cl : Fin 257) (t : Fin 128),
      (V (F := Ideal) m c main_v7 : S16x257x128.Idx → EReal) (ix3 b cl t) = indicator (m ((c : Thread nD τ).loc main_arg3) (ix2 b t)) cl)
    (m : (ℓ : Loc nD τ sig) → Buf (Elt Ideal) ℓ) (c : Dev nD) (t : Fin cfg0.N) (q : Fin 900) (s : Fin 128) :
    k0_pay2 (F := Ideal) (iblk m c 0 t) (iblk m c 3 t) (ix2 q s)
      = clsK (logitsRow (m ((c : Thread nD τ).loc main_arg0)) (img t) q) (m ((c : Thread nD τ).loc main_arg3) (ix2 (img t) s)) := by
  refine (hpay _ _ q s).trans ?_
  have hrow : (fun k => (iblk (F := Ideal) m c 0 t : Vec Ideal S1x900x257 .f32) (ix3 0 q k)) = logitsRow (m ((c : Thread nD τ).loc main_arg0)) (img t) q :=
    funext fun k => logits_block m c t q k
  unfold clsK
  refine congrArg (fun x => zeroW - x) ?_
  refine Finset.sum_congr rfl fun cl _ => ?_
  rw [hrow, (onehot_block m c t cl s).trans (hoh m c (img t) cl s)]

/-- At point `t`, the cost of the class term at (query, target), of the block's predicted box and of its target box is the cost
    array's entry at (image `t`, query, target): the boxes are the image's rows, the class term as above. -/
theorem point_value (hpay : ∀ (P0 : Vec Ideal S1x900x257 .f32) (P1 : Vec Ideal S1x257x128 .f32) (q : Fin 900) (t : Fin 128),
      k0_pay2 (F := Ideal) P0 P1 (ix2 q t) = zeroW - ∑ c : Fin 257, probK (fun c => P0 (ix3 0 q c)) c * P1 (ix3 0 c t))
    (hoh : ∀ (m : (ℓ : Loc nD τ sig) → Buf (Elt Ideal) ℓ) (c : Dev nD) (b : Fin 16) (cl : Fin 257) (t : Fin 128),
      (V (F := Ideal) m c main_v7 : S16x257x128.Idx → EReal) (ix3 b cl t) = indicator (m ((c : Thread nD τ).loc main_arg3) (ix2 b t)) cl)
    (m : (ℓ : Loc nD τ sig) → Buf (Elt Ideal) ℓ) (c : Dev nD) (t : Fin cfg0.N) (q : Fin 900) (s : Fin 128) :
    costK ((k0_pay2 (F := Ideal) (iblk m c 0 t) (iblk m c 3 t)) (ix2 q s))
        (fun k => (iblk (F := Ideal) m c 1 t : Vec Ideal S1x900x4 .f32) (ix3 0 q k))
        (fun k => (iblk (F := Ideal) m c 2 t : Vec Ideal S1x128x4 .f32) (ix3 0 s k))
      = GK (m ((c : Thread nD τ).loc main_arg0)) (m ((c : Thread nD τ).loc main_arg1)) (m ((c : Thread nD τ).loc main_arg2)) (m ((c : Thread nD τ).loc main_arg3)) (ix3 (img t) q s) := by
  have hP : (fun k => (iblk (F := Ideal) m c 1 t : Vec Ideal S1x900x4 .f32) (ix3 0 q k)) = predBox (m ((c : Thread nD τ).loc main_arg1)) (img t) q :=
    funext fun k => pred_block m c t q k
  have hT : (fun k => (iblk (F := Ideal) m c 2 t : Vec Ideal S1x128x4 .f32) (ix3 0 s k)) = tgtBox (m ((c : Thread nD τ).loc main_arg2)) (img t) s :=
    funext fun k => tgt_block m c t s k
  rw [class_value hpay hoh m c t q s, hP, hT]
  rfl

/-- WHAT POINT `t` WRITES BACK is block `t` of the cost array of the arguments. -/
theorem flushed_eq (hpay : ∀ (P0 : Vec Ideal S1x900x257 .f32) (P1 : Vec Ideal S1x257x128 .f32) (q : Fin 900) (t : Fin 128),
      k0_pay2 (F := Ideal) P0 P1 (ix2 q t) = zeroW - ∑ c : Fin 257, probK (fun c => P0 (ix3 0 q c)) c * P1 (ix3 0 c t))
    (hoh : ∀ (m : (ℓ : Loc nD τ sig) → Buf (Elt Ideal) ℓ) (c : Dev nD) (b : Fin 16) (cl : Fin 257) (t : Fin 128),
      (V (F := Ideal) m c main_v7 : S16x257x128.Idx → EReal) (ix3 b cl t) = indicator (m ((c : Thread nD τ).loc main_arg3) (ix2 b t)) cl)
    (m : (ℓ : Loc nD τ sig) → Buf (Elt Ideal) ℓ) (c : Dev nD) (t : Fin cfg0.N) :
    (dats (F := Ideal) m 0 c).flushed 4 t = ((cfg0.win 4).blk t).view.read (Elt Ideal) (GK (m ((c : Thread nD τ).loc main_arg0)) (m ((c : Thread nD τ).loc main_arg1)) (m ((c : Thread nD τ).loc main_arg2)) (m ((c : Thread nD τ).loc main_arg3))) := by
  rw [Value.flushed4]
  funext y
  obtain ⟨a, q, s, rfl⟩ : ∃ (a : Fin 1) (q : Fin 900) (s : Fin 128), y = ix3 a q s := ⟨y 0, y 1, y 2, eq_ix3 y⟩
  refine (out_at (iblk m c 0 t) (iblk m c 1 t) (iblk m c 2 t) (iblk m c 3 t) a q s).trans ?_
  refine (point_value hpay hoh m c t q s).trans ?_
  obtain ⟨-, -, -, -, e0, e1, e2⟩ := idx_facts t
  show GK _ _ _ _ _ = GK _ _ _ _ (((cfg0.win 4).blk t).view.emb (ix3 a q s))
  congr 1
  funext d; apply Fin.ext
  match d with
  | ⟨0, _⟩ => show t.val = win0_4.index t (0 : Fin 3) * 1 + 1 * a.val; have := a.isLt; omega
  | ⟨1, _⟩ => show q.val = win0_4.index t (1 : Fin 3) * 900 + 1 * q.val; omega
  | ⟨2, _⟩ => show s.val = win0_4.index t (2 : Fin 3) * 128 + 1 * s.val; omega

/-! ## The blocks cover the array -/

/-- An index of the array is in point `t`'s block iff each coordinate is in the block's range on its axis. -/
theorem mem_blk (t : Fin cfg0.N) (i : S16x900x128.Idx) :
    i ∈ ((cfg0.win 4).blk t).view.set ↔ ∀ a : Fin 3, win0_4.index t a * S1x900x128.size a ≤ (i a).val ∧ (i a).val < win0_4.index t a * S1x900x128.size a + S1x900x128.size a := by
  show i ∈ ((View.whole main_v8).slice (win0_4.rect t)).set ↔ _
  rw [View.set_slice_whole, Rect.mem_set_unit]
  exact Iff.rfl

/-- Every index is in the block of the point that works on its image. -/
theorem cover (i : S16x900x128.Idx) : ∃ t : Fin cfg0.N, (cfg0.win 4).flush t = true ∧ i ∈ ((cfg0.win 4).blk t).view.set := by
  have hi0 : (i 0).val < 16 := (i 0).isLt
  have hi1 : (i 1).val < 900 := (i 1).isLt
  have hi2 : (i 2).val < 128 := (i 2).isLt
  obtain ⟨t, ht⟩ : ∃ t : Fin cfg0.N, t.val = (i 0).val := ⟨⟨(i 0).val, Nat.lt_of_lt_of_eq hi0 N_0.symm⟩, rfl⟩
  refine ⟨t, flush0_4 t, ?_⟩
  rw [mem_blk]
  obtain ⟨-, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 900 ≤ (i 1).val ∧ (i 1).val < win0_4.index t (1 : Fin 3) * 900 + 900; omega
  | ⟨2, _⟩ => show win0_4.index t (2 : Fin 3) * 128 ≤ (i 2).val ∧ (i 2).val < win0_4.index t (2 : Fin 3) * 128 + 128; omega

/-! ## The array after the run, and the run -/

/-- THE ARRAY after the run is the cost array of the arguments. -/
theorem final (hpay : ∀ (P0 : Vec Ideal S1x900x257 .f32) (P1 : Vec Ideal S1x257x128 .f32) (q : Fin 900) (t : Fin 128),
      k0_pay2 (F := Ideal) P0 P1 (ix2 q t) = zeroW - ∑ c : Fin 257, probK (fun c => P0 (ix3 0 q c)) c * P1 (ix3 0 c t))
    (hoh : ∀ (m : (ℓ : Loc nD τ sig) → Buf (Elt Ideal) ℓ) (c : Dev nD) (b : Fin 16) (cl : Fin 257) (t : Fin 128),
      (V (F := Ideal) m c main_v7 : S16x257x128.Idx → EReal) (ix3 b cl t) = indicator (m ((c : Thread nD τ).loc main_arg3) (ix2 b t)) cl)
    (m : (ℓ : Loc nD τ sig) → Buf (Elt Ideal) ℓ) (c : Dev nD) :
    (dats (F := Ideal) m 0 c).arrAt 4 cfg0.N = GK (m ((c : Thread nD τ).loc main_arg0)) (m ((c : Thread nD τ).loc main_arg1)) (m ((c : Thread nD τ).loc main_arg2)) (m ((c : Thread nD τ).loc main_arg3)) :=
  (dats m 0 c).arrAt_eq_of_cover 4 (GK (m ((c : Thread nD τ).loc main_arg0)) (m ((c : Thread nD τ).loc main_arg1)) (m ((c : Thread nD τ).loc main_arg2)) (m ((c : Thread nD τ).loc main_arg3)))
    (fun t _ => flushed_eq hpay hoh m c t) cover

/-- The run, read: the result array at the cost array of the arguments, the arguments unchanged. -/
theorem run (hpay : ∀ (P0 : Vec Ideal S1x900x257 .f32) (P1 : Vec Ideal S1x257x128 .f32) (q : Fin 900) (t : Fin 128),
      k0_pay2 (F := Ideal) P0 P1 (ix2 q t) = zeroW - ∑ c : Fin 257, probK (fun c => P0 (ix3 0 q c)) c * P1 (ix3 0 c t))
    (hoh : ∀ (m : (ℓ : Loc nD τ sig) → Buf (Elt Ideal) ℓ) (c : Dev nD) (b : Fin 16) (cl : Fin 257) (t : Fin 128),
      (V (F := Ideal) m c main_v7 : S16x257x128.Idx → EReal) (ix3 b cl t) = indicator (m ((c : Thread nD τ).loc main_arg3) (ix2 b t)) cl)
    (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = GK (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final hpay hoh m c), (h c).2⟩) (Value.run_blocks m ρ)

end Cert.KernelIdeal.CostValue

end
-- ==== Proof.RefClass.lean ====
import proofs.«408529_j63204738727936_1_alg».proof.Proof.Gen.ReferenceIdeal.Read
import proofs.«408529_j63204738727936_1_alg».proof.Proof.Spec
import Idealize.ShloMosaic.Lib.ValueIdx
import Idealize.ShloMosaic.Lib.Pipeline.Value
import Idealize.ShloMosaic.PureOps.Reduce
import Idealize.ShloMosaic.PureOps.Ideal.Laws

/-!
  The reference's class term at one element.

  The reference lays the 16 images end to end: query `q` of image `b` is row `b * 900 + q` of a
  `[14400, 257]` array of logits, target `t` of image `b` is entry `b * 128 + t` of a `[2048]` array of
  labels. Each row is turned into probabilities by the shifted softmax (row maximum from `-∞`, joined
  with `-∞` once more; exponentials of the differences; their sum from a zero initial value; the
  quotient), a label word is normalised (a negative word shifted up by 257), and a gather reads, for
  each (row, label) pair, the row's probability at the label clamped into `[0, 256]`; the result is
  negated. At row `b * 900 + q` and column `b * 128 + t` that is `clsR` of image `b`'s logits row `q`
  and label `t`.
-/

noncomputable section

open Idealize.ShloMosaic Idealize.ShloMosaic.ValueIdx Cert.MatchCost
open Cert.ReferenceIdeal Cert.ReferenceIdeal.Gen

namespace Cert.ReferenceIdeal.CostRead

/-! ## The two operations whose element depends on more than one operand element -/

/-- The gather of a `[14400, 257]` operand at `[2048, 1]` start indices, axis 0 carried whole and axis 1 collapsed and
    indexed, read at `(r, j)`: the operand at row `r` and at the column the `j`-th index word names, read signed and
    clamped into `[0, 256]`. -/
theorem gather_apply {α : Type} {w : Nat} (x : S14400x257.Idx → α) (idx : IVec S2048x1 w) (r : Fin 14400) (j : Fin 2048) :
    Host.gather gather_S14400x257_S2048x1_S14400x2048_0_1_n_n_1_1_144001 x idx (ix2 r j)
      = x (ix2 r ⟨min (idx (ix2 j 0)).toInt.toNat 256, by omega⟩) := by
  unfold Host.gather
  congr 1
  funext a
  refine Fin.ext ?_
  show gather_S14400x257_S2048x1_S14400x2048_0_1_n_n_1_1_144001.start (ix2 r j) idx a
      + gather_S14400x257_S2048x1_S14400x2048_0_1_n_n_1_1_144001.batchCoord (ix2 r j) a
      + gather_S14400x257_S2048x1_S14400x2048_0_1_n_n_1_1_144001.offCoord (ix2 r j) a = _
  rw [GatherDims.batchCoord_eq_zero _ _ _ List.not_mem_nil]
  match a with
  | ⟨0, _⟩ =>
    -- axis 0 is not in the start index map, and is the first kept axis: the offset coordinate is the result's row
    have h0 : (⟨0, by decide⟩ : Fin 2) ∉ gather_S14400x257_S2048x1_S14400x2048_0_1_n_n_1_1_144001.startIndexMap := by decide
    have hk : (⟨0, by decide⟩ : Fin 2) ∈ gather_S14400x257_S2048x1_S14400x2048_0_1_n_n_1_1_144001.sKept := by decide
    unfold GatherDims.start GatherDims.offCoord
    rw [dif_neg h0, dif_pos hk]
    have hi : gather_S14400x257_S2048x1_S14400x2048_0_1_n_n_1_1_144001.offsetDims[List.idxOf (⟨0, by decide⟩ : Fin 2)
        gather_S14400x257_S2048x1_S14400x2048_0_1_n_n_1_1_144001.sKept]'(by decide) = (⟨0, by decide⟩ : Fin 2) := by decide
    simp only [Nat.zero_add]
    exact congrArg (fun c => ((ix2 r j) c).val) hi
  | ⟨1, _⟩ =>
    -- axis 1 is collapsed (offset coordinate 0) and indexed: the start is the index word clamped to 257 - 1
    have h1 : (⟨1, by decide⟩ : Fin 2) ∈ gather_S14400x257_S2048x1_S14400x2048_0_1_n_n_1_1_144001.startIndexMap :=
      List.mem_singleton.mpr rfl
    rw [GatherDims.offCoord_eq_zero _ _ _ (fun h => ((GatherDims.mem_sKept _ _).mp h).1 (List.mem_singleton.mpr rfl))]
    unfold GatherDims.start
    rw [dif_pos h1]
    have hsi : gather_S14400x257_S2048x1_S14400x2048_0_1_n_n_1_1_144001.siIdx (ix2 r j)
        ⟨List.idxOf (⟨1, by decide⟩ : Fin 2) gather_S14400x257_S2048x1_S14400x2048_0_1_n_n_1_1_144001.startIndexMap,
          List.idxOf_lt_length_iff.2 h1⟩ = ix2 j (0 : Fin 1) := by
      funext b; refine Fin.ext ?_
      match b with
      | ⟨0, _⟩ => rfl
      | ⟨1, _⟩ => rfl
    rw [hsi]
    rfl

/-- The reduced index `r` with column `k` put back is `(r, k)`. -/
theorem lift_row (h : S14400x257.Reduces [1] S14400) (r : Fin 14400) (k : Fin (S14400x257.size 1)) :
    h.lift (ix1 r) k = ix2 r (⟨k.val, k.isLt⟩ : Fin 257) := by
  funext c; apply Fin.ext
  fin_cases c <;> rfl

/-- From `-∞` the reduce with a maximum body over the 257 columns, at row `r`, is the fold of `max` over that row. -/
theorem rowmax_apply (x : FVec Ideal S14400x257 .f32) (h' : S14400x257.ReducesTo [1] S14400) (hu : 0 < S_.numel) (r : Fin 14400) :
    Host.reduce FloatOps.maximumf x (constant S_ .f32 0xFF800000#32) h' hu (ix1 r)
      = (Finset.univ : Finset (Fin 257)).fold max negInfW (fun k => x (ix2 r k)) := by
  have hr : S14400x257.Reduces [1] S14400 := ⟨h'.1, Nat.one_pos, h'.2⟩
  rw [Host.reduce_eq_fold_single FloatOps.maximumf x _ h' hr hu]
  have hf : (x ∘ hr.lift (ix1 r)) = fun k : Fin 257 => x (ix2 r k) := funext fun k => congrArg x (lift_row hr r k)
  exact congrArg (fun f => Finset.fold max negInfW f (Finset.univ : Finset (Fin 257))) hf

/-! ## Where the layout operations read, at row `b * 900 + q` and at entry `b * 128 + t` -/

/-- Row `b * 900 + q`, column `c` of the flattened logits is element `(b, q, c)` of the argument:
    `((b * 900 + q) * 257 + c)` divided by `900 * 257`, by `257` modulo `900`, and modulo `257`. -/
theorem idx_v0_row (b : Fin 16) (q : Fin 900) (c : Fin 257) : Read.idx_main_v0 (ix2 (rowOf b q) c) = ix3 b q c := by
  have hb := b.isLt; have hq := q.isLt; have hc := c.isLt
  funext a; refine Fin.ext ?_
  match a with
  | ⟨0, _⟩ => show ((b.val * 900 + q.val) * 257 + c.val) / 231300 = b.val; omega
  | ⟨1, _⟩ => show ((b.val * 900 + q.val) * 257 + c.val) / 257 % 900 = q.val; omega
  | ⟨2, _⟩ => show ((b.val * 900 + q.val) * 257 + c.val) % 257 = c.val; omega

/-- Entry `b * 128 + t` of the flattened labels is element `(b, t)` of the argument. -/
theorem idx_v13_col (b : Fin 16) (t : Fin 128) : Read.idx_main_v13 (ix1 (colOf b t)) = ix2 b t := by
  have hb := b.isLt; have ht := t.isLt
  funext a; refine Fin.ext ?_
  match a with
  | ⟨0, _⟩ => show (b.val * 128 + t.val) / 128 = b.val; omega
  | ⟨1, _⟩ => show (b.val * 128 + t.val) % 128 = t.val; omega

/-- A row's broadcast along a unit column, then along the 257 columns, reads the row's entry. -/
theorem idx_v5_row (r : Fin 14400) (c : Fin 257) : Read.idx_main_v4 (Read.idx_main_v5 (ix2 r c)) = ix1 r := by
  funext a; refine Fin.ext ?_
  match a with
  | ⟨0, _⟩ => rfl

theorem idx_v10_row (r : Fin 14400) (c : Fin 257) : Read.idx_main_v9 (Read.idx_main_v10 (ix2 r c)) = ix1 r := by
  funext a; refine Fin.ext ?_
  match a with
  | ⟨0, _⟩ => rfl

theorem idx_v8_row (r : Fin 14400) (k : Fin 257) : Read.idx_main_v8 (ix1 r) k = ix2 r k := by
  funext a; refine Fin.ext ?_
  match a with
  | ⟨0, _⟩ => rfl
  | ⟨1, _⟩ => rfl

theorem idx_v20_col (j : Fin 2048) : Read.idx_main_v20 (ix2 j (0 : Fin 1)) = ix1 j := by
  funext a; refine Fin.ext ?_
  match a with
  | ⟨0, _⟩ => rfl

/-! ## The softmax of a row -/

variable (x0 : S16x900x257.Idx → EReal) (x3 : S16x128.Idx → BitVec 32)

/-- The flattened logits at row `b * 900 + q` are image `b`'s logits row `q`. -/
theorem v0_at (b : Fin 16) (q : Fin 900) (c : Fin 257) :
    Read.val_main_v0 (F := Ideal) x0 (ix2 (rowOf b q) c) = logitsRow x0 b q c := by
  rw [Read.val_main_v0_apply, idx_v0_row]; rfl

/-- The row maximum, folded from `-∞`. -/
theorem v1_at (b : Fin 16) (q : Fin 900) :
    Read.val_main_v1 (F := Ideal) x0 (ix1 (rowOf b q))
      = (Finset.univ : Finset (Fin 257)).fold max negInfW (logitsRow x0 b q) := by
  unfold Read.val_main_v1 Read.val_main_cst
  rw [rowmax_apply]
  exact congrArg (fun f => Finset.fold max negInfW f (Finset.univ : Finset (Fin 257))) (funext fun k => v0_at x0 b q k)

/-- Joined with `-∞` once more and broadcast along the row: `rowMax`. -/
theorem v5_at (b : Fin 16) (q : Fin 900) (c : Fin 257) :
    Read.val_main_v5 (F := Ideal) x0 (ix2 (rowOf b q) c) = rowMax (logitsRow x0 b q) := by
  rw [Read.val_main_v5_apply, Read.val_main_v4_apply, idx_v5_row, Read.val_main_v3_apply, Read.val_main_v2_apply,
    Read.val_main_cst_0_apply, v1_at]
  rfl

/-- The exponential of a logit less the row maximum. -/
theorem v7_at (b : Fin 16) (q : Fin 900) (c : Fin 257) :
    Read.val_main_v7 (F := Ideal) x0 (ix2 (rowOf b q) c) = expShift (logitsRow x0 b q) c := by
  rw [Read.val_main_v7_apply, Read.val_main_v6_apply, v0_at, v5_at]
  rfl

/-- The normaliser: the exponentials summed from a zero initial value. -/
theorem v8_at (b : Fin 16) (q : Fin 900) :
    Read.val_main_v8 (F := Ideal) x0 (ix1 (rowOf b q)) = zeroW + ∑ k : Fin 257, expShift (logitsRow x0 b q) k := by
  rw [Read.val_main_v8_apply, Read.val_main_cst_1_apply]
  refine congrArg (_ + ·) (Finset.sum_congr rfl fun k _ => ?_)
  rw [idx_v8_row, v7_at]

/-- The probability of class `c`. -/
theorem v11_at (b : Fin 16) (q : Fin 900) (c : Fin 257) :
    Read.val_main_v11 (F := Ideal) x0 (ix2 (rowOf b q) c) = probR (logitsRow x0 b q) c := by
  rw [Read.val_main_v11_apply, v7_at, Read.val_main_v10_apply, Read.val_main_v9_apply, idx_v10_row, v8_at]
  rfl

/-! ## The label word -/

/-- The normalised label: a negative word shifted up by 257. -/
theorem v20_at (b : Fin 16) (t : Fin 128) :
    Read.val_main_v20 (F := Ideal) x3 (ix2 (colOf b t) (0 : Fin 1))
      = Scalar.select (IntOp.cmpi .slt (x3 (ix2 b t)) 0#32) (x3 (ix2 b t) + 257#32) (x3 (ix2 b t)) := by
  rw [Read.val_main_v20_apply, idx_v20_col, Read.val_main_v19_apply, Read.val_main_v16_apply, Read.val_main_v18_apply,
    Read.val_main_v13_apply, Read.val_main_v15_apply, Read.val_main_v17_apply, Read.val_main_c_apply,
    Read.val_main_c_2_apply, idx_v13_col]
  rfl

/-! ## The class term -/

/-- The gathered probability at (row `b * 900 + q`, entry `b * 128 + t`): the row's probability at the label's class. -/
theorem v21_at (b : Fin 16) (q : Fin 900) (t : Fin 128) :
    Read.val_main_v21 (F := Ideal) x0 x3 (ix2 (rowOf b q) (colOf b t))
      = probR (logitsRow x0 b q) (labelIdx (x3 (ix2 b t))) := by
  unfold Read.val_main_v21
  rw [gather_apply, ← v11_at x0 b q (labelIdx (x3 (ix2 b t)))]
  refine congrArg (fun c => Read.val_main_v11 (F := Ideal) x0 (ix2 (rowOf b q) c)) (Fin.ext ?_)
  show min (Read.val_main_v20 (F := Ideal) x3 (ix2 (colOf b t) (0 : Fin 1))).toInt.toNat 256 = _
  rw [v20_at]
  rfl

theorem ref_cls (x0 : S16x900x257.Idx → EReal) (x3 : S16x128.Idx → BitVec 32) (b : Fin 16) (q : Fin 900) (t : Fin 128) :
    Read.val_main_v22 (F := Ideal) x0 x3 (ix2 (rowOf b q) (colOf b t)) = clsR (logitsRow x0 b q) (x3 (ix2 b t)) := by
  rw [Read.val_main_v22_apply, v21_at]
  rfl

end Cert.ReferenceIdeal.CostRead

end
-- ==== Proof.RefBox.lean ====
/-
  The reference's box arithmetic at one element.

  Laid end to end, image `b`'s query `q` is row `b · 900 + q` of the flattened predicted boxes and its
  target `t` is row `b · 128 + t` of the flattened target boxes.  At such a pair of rows the L1 distance
  is a zero initial value plus the sum over the four coordinates of `|p k - t k|`; the corner form of a
  box `(cx, cy, w, h)` is `(cx - w/2, cy - h/2, cx + w/2, cy + h/2)`, the four one-column pieces joined
  along the column axis; and the area is `(x₂ - x₁) · (y₂ - y₁)` read back from the corner form.
-/
import proofs.«408529_j63204738727936_1_alg».proof.Proof.Gen.ReferenceIdeal.Read
import proofs.«408529_j63204738727936_1_alg».proof.Proof.Spec
import Idealize.ShloMosaic.Lib.ValueIdx
import Idealize.ShloMosaic.Lib.Pipeline.Value
import Idealize.ShloMosaic.PureOps.Ideal.Laws

noncomputable section

namespace Cert.ReferenceIdeal.CostRead

open Idealize.ShloMosaic Idealize.ShloMosaic.ValueIdx Cert.MatchCost Cert.ReferenceIdeal Cert.ReferenceIdeal.Gen

/-! ## Rows of the flattened arrays -/

/-- Row `b · 900 + q`, column `k` of the flattened predicted boxes is coordinate `k` of image `b`'s query `q`. -/
theorem box_pred_row (x1 : S16x900x4.Idx → EReal) (b : Fin 16) (q : Fin 900) (k : Fin 4) :
    Read.val_main_v12 (F := Ideal) x1 (ix2 (rowOf b q) k) = predBox x1 b q k := by
  rw [Read.val_main_v12_apply]
  show x1 _ = x1 (ix3 b q k)
  refine congrArg x1 (funext fun a => Fin.ext ?_)
  have hb := b.isLt; have hq := q.isLt; have hk := k.isLt
  match a with
  | ⟨0, _⟩ => show ((b.val * 900 + q.val) * 4 + k.val) / 3600 = b.val; omega
  | ⟨1, _⟩ => show ((b.val * 900 + q.val) * 4 + k.val) / 4 % 900 = q.val; omega
  | ⟨2, _⟩ => show ((b.val * 900 + q.val) * 4 + k.val) % 4 = k.val; omega

/-- Row `b · 128 + t`, column `k` of the flattened target boxes is coordinate `k` of image `b`'s target `t`. -/
theorem box_tgt_row (x2 : S16x128x4.Idx → EReal) (b : Fin 16) (t : Fin 128) (k : Fin 4) :
    Read.val_main_v14 (F := Ideal) x2 (ix2 (colOf b t) k) = tgtBox x2 b t k := by
  rw [Read.val_main_v14_apply]
  show x2 _ = x2 (ix3 b t k)
  refine congrArg x2 (funext fun a => Fin.ext ?_)
  have hb := b.isLt; have ht := t.isLt; have hk := k.isLt
  match a with
  | ⟨0, _⟩ => show ((b.val * 128 + t.val) * 4 + k.val) / 512 = b.val; omega
  | ⟨1, _⟩ => show ((b.val * 128 + t.val) * 4 + k.val) / 4 % 128 = t.val; omega
  | ⟨2, _⟩ => show ((b.val * 128 + t.val) * 4 + k.val) % 4 = k.val; omega

/-! ## The L1 distance -/

theorem ref_l1 (x1 : S16x900x4.Idx → EReal) (x2 : S16x128x4.Idx → EReal) (b : Fin 16) (q : Fin 900) (t : Fin 128) :
    Read.val_main_v29 (F := Ideal) x1 x2 (ix2 (rowOf b q) (colOf b t)) = l1R (predBox x1 b q) (tgtBox x2 b t) := by
  rw [Read.val_main_v29_apply]
  show zeroW + _ = zeroW + ∑ k : Fin 4, absE (predBox x1 b q k - tgtBox x2 b t k)
  refine congrArg (zeroW + ·) (Finset.sum_congr rfl fun k _ => ?_)
  rw [Read.val_main_v28_apply, Read.val_main_v27_apply, Read.val_main_v25_apply, Read.val_main_v26_apply,
    Read.val_main_v23_apply, Read.val_main_v24_apply]
  -- the two broadcasts keep the row (resp. the column) and the coordinate
  have e1 : Read.idx_main_v23 (Read.idx_main_v25 (Read.idx_main_v29 (ix2 (rowOf b q) (colOf b t)) k)) = ix2 (rowOf b q) k :=
    funext fun a => match a with | ⟨0, _⟩ => rfl | ⟨1, _⟩ => rfl
  have e2 : Read.idx_main_v24 (Read.idx_main_v26 (Read.idx_main_v29 (ix2 (rowOf b q) (colOf b t)) k)) = ix2 (colOf b t) k :=
    funext fun a => match a with | ⟨0, _⟩ => rfl | ⟨1, _⟩ => rfl
  rw [e1, e2, box_pred_row, box_tgt_row]
  rfl

/-! ## A join of four one-column pieces, read at a column

Piece `k` spans column `k` alone (the pieces before it span `k` columns), so column `k` of the join is
column `0` of piece `k`, at the same row. -/

section Join

variable {n : Nat} (y0 y1 y2 y3 : (⟨2, ![n, 1]⟩ : Shape).Idx → EReal)
  (h : Shape.Concatenates [(⟨2, ![n, 1]⟩ : Shape), ⟨2, ![n, 1]⟩, ⟨2, ![n, 1]⟩, ⟨2, ![n, 1]⟩] ⟨2, ![n, 4]⟩ 1) (r : Fin n)

theorem box_join4_col0 :
    concatenate (⟨2, ![n, 4]⟩ : Shape) 1 [⟨⟨2, ![n, 1]⟩, y0⟩, ⟨⟨2, ![n, 1]⟩, y1⟩, ⟨⟨2, ![n, 1]⟩, y2⟩, ⟨⟨2, ![n, 1]⟩, y3⟩] h (ix2 r (0 : Fin 4))
      = y0 (ix2 r (0 : Fin 1)) :=
  concatenate_apply_piece (t := ⟨2, ![n, 4]⟩) (1 : Fin 2) [⟨⟨2, ![n, 1]⟩, y0⟩, ⟨⟨2, ![n, 1]⟩, y1⟩, ⟨⟨2, ![n, 1]⟩, y2⟩, ⟨⟨2, ![n, 1]⟩, y3⟩] h
    (ix2 r (0 : Fin 4)) 0 (show 0 < 4 by decide) ⟨2, ![n, 1]⟩ y0 rfl rfl 0 rfl (ix2 r (0 : Fin 1))
    (fun b hb => match b, hb with
      | ⟨0, _⟩, _ => rfl
      | ⟨1, _⟩, hb => (hb (Fin.ext rfl)).elim) rfl

theorem box_join4_col1 :
    concatenate (⟨2, ![n, 4]⟩ : Shape) 1 [⟨⟨2, ![n, 1]⟩, y0⟩, ⟨⟨2, ![n, 1]⟩, y1⟩, ⟨⟨2, ![n, 1]⟩, y2⟩, ⟨⟨2, ![n, 1]⟩, y3⟩] h (ix2 r (1 : Fin 4))
      = y1 (ix2 r (0 : Fin 1)) :=
  concatenate_apply_piece (t := ⟨2, ![n, 4]⟩) (1 : Fin 2) [⟨⟨2, ![n, 1]⟩, y0⟩, ⟨⟨2, ![n, 1]⟩, y1⟩, ⟨⟨2, ![n, 1]⟩, y2⟩, ⟨⟨2, ![n, 1]⟩, y3⟩] h
    (ix2 r (1 : Fin 4)) 1 (show 1 < 4 by decide) ⟨2, ![n, 1]⟩ y1 rfl rfl 1 rfl (ix2 r (0 : Fin 1))
    (fun b hb => match b, hb with
      | ⟨0, _⟩, _ => rfl
      | ⟨1, _⟩, hb => (hb (Fin.ext rfl)).elim) rfl

theorem box_join4_col2 :
    concatenate (⟨2, ![n, 4]⟩ : Shape) 1 [⟨⟨2, ![n, 1]⟩, y0⟩, ⟨⟨2, ![n, 1]⟩, y1⟩, ⟨⟨2, ![n, 1]⟩, y2⟩, ⟨⟨2, ![n, 1]⟩, y3⟩] h (ix2 r (2 : Fin 4))
      = y2 (ix2 r (0 : Fin 1)) :=
  concatenate_apply_piece (t := ⟨2, ![n, 4]⟩) (1 : Fin 2) [⟨⟨2, ![n, 1]⟩, y0⟩, ⟨⟨2, ![n, 1]⟩, y1⟩, ⟨⟨2, ![n, 1]⟩, y2⟩, ⟨⟨2, ![n, 1]⟩, y3⟩] h
    (ix2 r (2 : Fin 4)) 2 (show 2 < 4 by decide) ⟨2, ![n, 1]⟩ y2 rfl rfl 2 rfl (ix2 r (0 : Fin 1))
    (fun b hb => match b, hb with
      | ⟨0, _⟩, _ => rfl
      | ⟨1, _⟩, hb => (hb (Fin.ext rfl)).elim) rfl

theorem box_join4_col3 :
    concatenate (⟨2, ![n, 4]⟩ : Shape) 1 [⟨⟨2, ![n, 1]⟩, y0⟩, ⟨⟨2, ![n, 1]⟩, y1⟩, ⟨⟨2, ![n, 1]⟩, y2⟩, ⟨⟨2, ![n, 1]⟩, y3⟩] h (ix2 r (3 : Fin 4))
      = y3 (ix2 r (0 : Fin 1)) :=
  concatenate_apply_piece (t := ⟨2, ![n, 4]⟩) (1 : Fin 2) [⟨⟨2, ![n, 1]⟩, y0⟩, ⟨⟨2, ![n, 1]⟩, y1⟩, ⟨⟨2, ![n, 1]⟩, y2⟩, ⟨⟨2, ![n, 1]⟩, y3⟩] h
    (ix2 r (3 : Fin 4)) 3 (show 3 < 4 by decide) ⟨2, ![n, 1]⟩ y3 rfl rfl 3 rfl (ix2 r (0 : Fin 1))
    (fun b hb => match b, hb with
      | ⟨0, _⟩, _ => rfl
      | ⟨1, _⟩, hb => (hb (Fin.ext rfl)).elim) rfl

end Join

/-! ## The corner form

Column `k` of the corner form is piece `k` of the join: a centre coordinate less (columns 0, 1) or plus
(columns 2, 3) one half of the matching extent. -/

theorem ref_corner_p0 (x1 : S16x900x4.Idx → EReal) (b : Fin 16) (q : Fin 900) :
    Read.val_main_v46 (F := Ideal) x1 (ix2 (rowOf b q) 0) = lo (predBox x1 b q 0) (predBox x1 b q 2) := by
  unfold Read.val_main_v46
  rw [box_join4_col0, Read.val_main_v36_apply, Read.val_main_v35_apply, Read.val_main_v30_apply, Read.val_main_v34_apply,
    Read.val_main_v32_apply]
  have ec : Read.idx_main_v30 (ix2 (rowOf b q) (0 : Fin 1)) = ix2 (rowOf b q) 0 :=
    funext fun a => match a with | ⟨0, _⟩ => rfl | ⟨1, _⟩ => rfl
  have ee : Read.idx_main_v32 (ix2 (rowOf b q) (0 : Fin 1)) = ix2 (rowOf b q) 2 :=
    funext fun a => match a with | ⟨0, _⟩ => rfl | ⟨1, _⟩ => rfl
  rw [ec, ee, box_pred_row, box_pred_row]
  rfl

theorem ref_corner_p1 (x1 : S16x900x4.Idx → EReal) (b : Fin 16) (q : Fin 900) :
    Read.val_main_v46 (F := Ideal) x1 (ix2 (rowOf b q) 1) = lo (predBox x1 b q 1) (predBox x1 b q 3) := by
  unfold Read.val_main_v46
  rw [box_join4_col1, Read.val_main_v39_apply, Read.val_main_v38_apply, Read.val_main_v31_apply, Read.val_main_v37_apply,
    Read.val_main_v33_apply]
  have ec : Read.idx_main_v31 (ix2 (rowOf b q) (0 : Fin 1)) = ix2 (rowOf b q) 1 :=
    funext fun a => match a with | ⟨0, _⟩ => rfl | ⟨1, _⟩ => rfl
  have ee : Read.idx_main_v33 (ix2 (rowOf b q) (0 : Fin 1)) = ix2 (rowOf b q) 3 :=
    funext fun a => match a with | ⟨0, _⟩ => rfl | ⟨1, _⟩ => rfl
  rw [ec, ee, box_pred_row, box_pred_row]
  rfl

theorem ref_corner_p2 (x1 : S16x900x4.Idx → EReal) (b : Fin 16) (q : Fin 900) :
    Read.val_main_v46 (F := Ideal) x1 (ix2 (rowOf b q) 2) = hi (predBox x1 b q 0) (predBox x1 b q 2) := by
  unfold Read.val_main_v46
  rw [box_join4_col2, Read.val_main_v42_apply, Read.val_main_v41_apply, Read.val_main_v30_apply, Read.val_main_v40_apply,
    Read.val_main_v32_apply]
  have ec : Read.idx_main_v30 (ix2 (rowOf b q) (0 : Fin 1)) = ix2 (rowOf b q) 0 :=
    funext fun a => match a with | ⟨0, _⟩ => rfl | ⟨1, _⟩ => rfl
  have ee : Read.idx_main_v32 (ix2 (rowOf b q) (0 : Fin 1)) = ix2 (rowOf b q) 2 :=
    funext fun a => match a with | ⟨0, _⟩ => rfl | ⟨1, _⟩ => rfl
  rw [ec, ee, box_pred_row, box_pred_row]
  rfl

theorem ref_corner_p3 (x1 : S16x900x4.Idx → EReal) (b : Fin 16) (q : Fin 900) :
    Read.val_main_v46 (F := Ideal) x1 (ix2 (rowOf b q) 3) = hi (predBox x1 b q 1) (predBox x1 b q 3) := by
  unfold Read.val_main_v46
  rw [box_join4_col3, Read.val_main_v45_apply, Read.val_main_v44_apply, Read.val_main_v31_apply, Read.val_main_v43_apply,
    Read.val_main_v33_apply]
  have ec : Read.idx_main_v31 (ix2 (rowOf b q) (0 : Fin 1)) = ix2 (rowOf b q) 1 :=
    funext fun a => match a with | ⟨0, _⟩ => rfl | ⟨1, _⟩ => rfl
  have ee : Read.idx_main_v33 (ix2 (rowOf b q) (0 : Fin 1)) = ix2 (rowOf b q) 3 :=
    funext fun a => match a with | ⟨0, _⟩ => rfl | ⟨1, _⟩ => rfl
  rw [ec, ee, box_pred_row, box_pred_row]
  rfl

theorem ref_corner_t0 (x2 : S16x128x4.Idx → EReal) (b : Fin 16) (t : Fin 128) :
    Read.val_main_v63 (F := Ideal) x2 (ix2 (colOf b t) 0) = lo (tgtBox x2 b t 0) (tgtBox x2 b t 2) := by
  unfold Read.val_main_v63
  rw [box_join4_col0, Read.val_main_v53_apply, Read.val_main_v52_apply, Read.val_main_v47_apply, Read.val_main_v51_apply,
    Read.val_main_v49_apply]
  have ec : Read.idx_main_v47 (ix2 (colOf b t) (0 : Fin 1)) = ix2 (colOf b t) 0 :=
    funext fun a => match a with | ⟨0, _⟩ => rfl | ⟨1, _⟩ => rfl
  have ee : Read.idx_main_v49 (ix2 (colOf b t) (0 : Fin 1)) = ix2 (colOf b t) 2 :=
    funext fun a => match a with | ⟨0, _⟩ => rfl | ⟨1, _⟩ => rfl
  rw [ec, ee, box_tgt_row, box_tgt_row]
  rfl

theorem ref_corner_t1 (x2 : S16x128x4.Idx → EReal) (b : Fin 16) (t : Fin 128) :
    Read.val_main_v63 (F := Ideal) x2 (ix2 (colOf b t) 1) = lo (tgtBox x2 b t 1) (tgtBox x2 b t 3) := by
  unfold Read.val_main_v63
  rw [box_join4_col1, Read.val_main_v56_apply, Read.val_main_v55_apply, Read.val_main_v48_apply, Read.val_main_v54_apply,
    Read.val_main_v50_apply]
  have ec : Read.idx_main_v48 (ix2 (colOf b t) (0 : Fin 1)) = ix2 (colOf b t) 1 :=
    funext fun a => match a with | ⟨0, _⟩ => rfl | ⟨1, _⟩ => rfl
  have ee : Read.idx_main_v50 (ix2 (colOf b t) (0 : Fin 1)) = ix2 (colOf b t) 3 :=
    funext fun a => match a with | ⟨0, _⟩ => rfl | ⟨1, _⟩ => rfl
  rw [ec, ee, box_tgt_row, box_tgt_row]
  rfl

theorem ref_corner_t2 (x2 : S16x128x4.Idx → EReal) (b : Fin 16) (t : Fin 128) :
    Read.val_main_v63 (F := Ideal) x2 (ix2 (colOf b t) 2) = hi (tgtBox x2 b t 0) (tgtBox x2 b t 2) := by
  unfold Read.val_main_v63
  rw [box_join4_col2, Read.val_main_v59_apply, Read.val_main_v58_apply, Read.val_main_v47_apply, Read.val_main_v57_apply,
    Read.val_main_v49_apply]
  have ec : Read.idx_main_v47 (ix2 (colOf b t) (0 : Fin 1)) = ix2 (colOf b t) 0 :=
    funext fun a => match a with | ⟨0, _⟩ => rfl | ⟨1, _⟩ => rfl
  have ee : Read.idx_main_v49 (ix2 (colOf b t) (0 : Fin 1)) = ix2 (colOf b t) 2 :=
    funext fun a => match a with | ⟨0, _⟩ => rfl | ⟨1, _⟩ => rfl
  rw [ec, ee, box_tgt_row, box_tgt_row]
  rfl

theorem ref_corner_t3 (x2 : S16x128x4.Idx → EReal) (b : Fin 16) (t : Fin 128) :
    Read.val_main_v63 (F := Ideal) x2 (ix2 (colOf b t) 3) = hi (tgtBox x2 b t 1) (tgtBox x2 b t 3) := by
  unfold Read.val_main_v63
  rw [box_join4_col3, Read.val_main_v62_apply, Read.val_main_v61_apply, Read.val_main_v48_apply, Read.val_main_v60_apply,
    Read.val_main_v50_apply]
  have ec : Read.idx_main_v48 (ix2 (colOf b t) (0 : Fin 1)) = ix2 (colOf b t) 1 :=
    funext fun a => match a with | ⟨0, _⟩ => rfl | ⟨1, _⟩ => rfl
  have ee : Read.idx_main_v50 (ix2 (colOf b t) (0 : Fin 1)) = ix2 (colOf b t) 3 :=
    funext fun a => match a with | ⟨0, _⟩ => rfl | ⟨1, _⟩ => rfl
  rw [ec, ee, box_tgt_row, box_tgt_row]
  rfl

/-! ## The area, read back from the corner form: `(x₂ - x₁) · (y₂ - y₁)` -/

theorem ref_area_p (x1 : S16x900x4.Idx → EReal) (b : Fin 16) (q : Fin 900) :
    Read.val_main_v74 (F := Ideal) x1 (ix1 (rowOf b q)) = areaR (predBox x1 b q) := by
  rw [Read.val_main_v74_apply, Read.val_main_v68_apply, Read.val_main_v73_apply,
    Read.val_main_v65_apply, Read.val_main_v67_apply, Read.val_main_v70_apply, Read.val_main_v72_apply,
    Read.val_main_v64_apply, Read.val_main_v66_apply, Read.val_main_v69_apply, Read.val_main_v71_apply]
  have e2 : Read.idx_main_v64 (Read.idx_main_v65 (ix1 (rowOf b q))) = ix2 (rowOf b q) 2 :=
    funext fun a => match a with | ⟨0, _⟩ => Fin.ext (Nat.div_one _) | ⟨1, _⟩ => rfl
  have e0 : Read.idx_main_v66 (Read.idx_main_v67 (ix1 (rowOf b q))) = ix2 (rowOf b q) 0 :=
    funext fun a => match a with | ⟨0, _⟩ => Fin.ext (Nat.div_one _) | ⟨1, _⟩ => rfl
  have e3 : Read.idx_main_v69 (Read.idx_main_v70 (ix1 (rowOf b q))) = ix2 (rowOf b q) 3 :=
    funext fun a => match a with | ⟨0, _⟩ => Fin.ext (Nat.div_one _) | ⟨1, _⟩ => rfl
  have e1 : Read.idx_main_v71 (Read.idx_main_v72 (ix1 (rowOf b q))) = ix2 (rowOf b q) 1 :=
    funext fun a => match a with | ⟨0, _⟩ => Fin.ext (Nat.div_one _) | ⟨1, _⟩ => rfl
  rw [e2, e0, e3, e1, ref_corner_p2, ref_corner_p0, ref_corner_p3, ref_corner_p1]
  rfl

theorem ref_area_t (x2 : S16x128x4.Idx → EReal) (b : Fin 16) (t : Fin 128) :
    Read.val_main_v85 (F := Ideal) x2 (ix1 (colOf b t)) = areaR (tgtBox x2 b t) := by
  rw [Read.val_main_v85_apply, Read.val_main_v79_apply, Read.val_main_v84_apply,
    Read.val_main_v76_apply, Read.val_main_v78_apply, Read.val_main_v81_apply, Read.val_main_v83_apply,
    Read.val_main_v75_apply, Read.val_main_v77_apply, Read.val_main_v80_apply, Read.val_main_v82_apply]
  have e2 : Read.idx_main_v75 (Read.idx_main_v76 (ix1 (colOf b t))) = ix2 (colOf b t) 2 :=
    funext fun a => match a with | ⟨0, _⟩ => Fin.ext (Nat.div_one _) | ⟨1, _⟩ => rfl
  have e0 : Read.idx_main_v77 (Read.idx_main_v78 (ix1 (colOf b t))) = ix2 (colOf b t) 0 :=
    funext fun a => match a with | ⟨0, _⟩ => Fin.ext (Nat.div_one _) | ⟨1, _⟩ => rfl
  have e3 : Read.idx_main_v80 (Read.idx_main_v81 (ix1 (colOf b t))) = ix2 (colOf b t) 3 :=
    funext fun a => match a with | ⟨0, _⟩ => Fin.ext (Nat.div_one _) | ⟨1, _⟩ => rfl
  have e1 : Read.idx_main_v82 (Read.idx_main_v83 (ix1 (colOf b t))) = ix2 (colOf b t) 1 :=
    funext fun a => match a with | ⟨0, _⟩ => Fin.ext (Nat.div_one _) | ⟨1, _⟩ => rfl
  rw [e2, e0, e3, e1, ref_corner_t2, ref_corner_t0, ref_corner_t3, ref_corner_t1]
  rfl

end Cert.ReferenceIdeal.CostRead

end
-- ==== Proof.RefGiou.lean ====
/-
  The reference's generalized-IoU term at one (query, target) pair.

  With the images laid end to end, row r of the corner array of the predictions and row c of the corner array
  of the targets hold (x_lo, y_lo, x_hi, y_hi).  Along one axis the overlap of the two boxes has extent
  max 0 (min hi_p hi_t - max lo_p lo_t) and their hull has extent max 0 (max hi_p hi_t - min lo_p lo_t); the
  overlap area I and the hull area E are the products over the two axes, the union is U = (A_p + A_t) - I, and the
  term is -(I / U - (E - U) / E).  Each array of the chain is read at one element; the broadcasts, slices and
  reshapes between them only move coordinates.
-/
import proofs.«408529_j63204738727936_1_alg».proof.Proof.Gen.ReferenceIdeal.Read
import proofs.«408529_j63204738727936_1_alg».proof.Proof.Spec
import Idealize.ShloMosaic.Lib.ValueIdx
import Idealize.ShloMosaic.PureOps.Ideal.Laws

noncomputable section

namespace Cert.ReferenceIdeal.CostRead

open Idealize.ShloMosaic Idealize.ShloMosaic.ValueIdx Cert.MatchCost Cert.ReferenceIdeal Cert.ReferenceIdeal.Read

/-! ## The overlap's extent along each axis -/

/-- Along the first axis the upper corners sit in column 2 and the lower ones in column 0. -/
theorem overlap_axis0 (x1 : S16x900x4.Idx → EReal) (x2 : S16x128x4.Idx → EReal) (r : Fin 14400) (c : Fin 2048) :
    val_main_v101 (F := Ideal) x1 x2 (ix3 r c (0 : Fin 2))
      = max zeroW (min (val_main_v46 (F := Ideal) x1 (ix2 r 2)) (val_main_v63 (F := Ideal) x2 (ix2 c 2))
          - max (val_main_v46 (F := Ideal) x1 (ix2 r 0)) (val_main_v63 (F := Ideal) x2 (ix2 c 0))) := by
  rw [val_main_v101_apply, val_main_call0_v1_apply, val_main_call0_v0_apply, val_main_cst_12_apply,
    val_main_v100_apply, val_main_v99_apply, val_main_v92_apply,
    val_main_v97_apply, val_main_v94_apply, val_main_v93_apply,
    val_main_v98_apply, val_main_v96_apply, val_main_v95_apply,
    val_main_v90_apply, val_main_v87_apply, val_main_v86_apply,
    val_main_v91_apply, val_main_v89_apply, val_main_v88_apply]
  have e1 : idx_main_v93 (idx_main_v94 (idx_main_v97 (ix3 r c (0 : Fin 2)))) = ix2 r 2 := by
    funext a; match a with | ⟨0, _⟩ => rfl | ⟨1, _⟩ => rfl
  have e2 : idx_main_v95 (idx_main_v96 (idx_main_v98 (ix3 r c (0 : Fin 2)))) = ix2 c 2 := by
    funext a; match a with | ⟨0, _⟩ => rfl | ⟨1, _⟩ => rfl
  have e3 : idx_main_v86 (idx_main_v87 (idx_main_v90 (ix3 r c (0 : Fin 2)))) = ix2 r 0 := by
    funext a; match a with | ⟨0, _⟩ => rfl | ⟨1, _⟩ => rfl
  have e4 : idx_main_v88 (idx_main_v89 (idx_main_v91 (ix3 r c (0 : Fin 2)))) = ix2 c 0 := by
    funext a; match a with | ⟨0, _⟩ => rfl | ⟨1, _⟩ => rfl
  rw [e1, e2, e3, e4]
  rfl

/-- Along the second axis the upper corners sit in column 3 and the lower ones in column 1. -/
theorem overlap_axis1 (x1 : S16x900x4.Idx → EReal) (x2 : S16x128x4.Idx → EReal) (r : Fin 14400) (c : Fin 2048) :
    val_main_v101 (F := Ideal) x1 x2 (ix3 r c (1 : Fin 2))
      = max zeroW (min (val_main_v46 (F := Ideal) x1 (ix2 r 3)) (val_main_v63 (F := Ideal) x2 (ix2 c 3))
          - max (val_main_v46 (F := Ideal) x1 (ix2 r 1)) (val_main_v63 (F := Ideal) x2 (ix2 c 1))) := by
  rw [val_main_v101_apply, val_main_call0_v1_apply, val_main_call0_v0_apply, val_main_cst_12_apply,
    val_main_v100_apply, val_main_v99_apply, val_main_v92_apply,
    val_main_v97_apply, val_main_v94_apply, val_main_v93_apply,
    val_main_v98_apply, val_main_v96_apply, val_main_v95_apply,
    val_main_v90_apply, val_main_v87_apply, val_main_v86_apply,
    val_main_v91_apply, val_main_v89_apply, val_main_v88_apply]
  have e1 : idx_main_v93 (idx_main_v94 (idx_main_v97 (ix3 r c (1 : Fin 2)))) = ix2 r 3 := by
    funext a; match a with | ⟨0, _⟩ => rfl | ⟨1, _⟩ => rfl
  have e2 : idx_main_v95 (idx_main_v96 (idx_main_v98 (ix3 r c (1 : Fin 2)))) = ix2 c 3 := by
    funext a; match a with | ⟨0, _⟩ => rfl | ⟨1, _⟩ => rfl
  have e3 : idx_main_v86 (idx_main_v87 (idx_main_v90 (ix3 r c (1 : Fin 2)))) = ix2 r 1 := by
    funext a; match a with | ⟨0, _⟩ => rfl | ⟨1, _⟩ => rfl
  have e4 : idx_main_v88 (idx_main_v89 (idx_main_v91 (ix3 r c (1 : Fin 2)))) = ix2 c 1 := by
    funext a; match a with | ⟨0, _⟩ => rfl | ⟨1, _⟩ => rfl
  rw [e1, e2, e3, e4]
  rfl

/-! ## The hull's extent along each axis: the same reads with minimum and maximum exchanged -/

theorem hull_axis0 (x1 : S16x900x4.Idx → EReal) (x2 : S16x128x4.Idx → EReal) (r : Fin 14400) (c : Fin 2048) :
    val_main_v129 (F := Ideal) x1 x2 (ix3 r c (0 : Fin 2))
      = max zeroW (max (val_main_v46 (F := Ideal) x1 (ix2 r 2)) (val_main_v63 (F := Ideal) x2 (ix2 c 2))
          - min (val_main_v46 (F := Ideal) x1 (ix2 r 0)) (val_main_v63 (F := Ideal) x2 (ix2 c 0))) := by
  rw [val_main_v129_apply, val_main_call1_v1_apply, val_main_call1_v0_apply, val_main_cst_13_apply,
    val_main_v128_apply, val_main_v127_apply, val_main_v120_apply,
    val_main_v125_apply, val_main_v122_apply, val_main_v121_apply,
    val_main_v126_apply, val_main_v124_apply, val_main_v123_apply,
    val_main_v118_apply, val_main_v115_apply, val_main_v114_apply,
    val_main_v119_apply, val_main_v117_apply, val_main_v116_apply]
  have e1 : idx_main_v121 (idx_main_v122 (idx_main_v125 (ix3 r c (0 : Fin 2)))) = ix2 r 2 := by
    funext a; match a with | ⟨0, _⟩ => rfl | ⟨1, _⟩ => rfl
  have e2 : idx_main_v123 (idx_main_v124 (idx_main_v126 (ix3 r c (0 : Fin 2)))) = ix2 c 2 := by
    funext a; match a with | ⟨0, _⟩ => rfl | ⟨1, _⟩ => rfl
  have e3 : idx_main_v114 (idx_main_v115 (idx_main_v118 (ix3 r c (0 : Fin 2)))) = ix2 r 0 := by
    funext a; match a with | ⟨0, _⟩ => rfl | ⟨1, _⟩ => rfl
  have e4 : idx_main_v116 (idx_main_v117 (idx_main_v119 (ix3 r c (0 : Fin 2)))) = ix2 c 0 := by
    funext a; match a with | ⟨0, _⟩ => rfl | ⟨1, _⟩ => rfl
  rw [e1, e2, e3, e4]
  rfl

theorem hull_axis1 (x1 : S16x900x4.Idx → EReal) (x2 : S16x128x4.Idx → EReal) (r : Fin 14400) (c : Fin 2048) :
    val_main_v129 (F := Ideal) x1 x2 (ix3 r c (1 : Fin 2))
      = max zeroW (max (val_main_v46 (F := Ideal) x1 (ix2 r 3)) (val_main_v63 (F := Ideal) x2 (ix2 c 3))
          - min (val_main_v46 (F := Ideal) x1 (ix2 r 1)) (val_main_v63 (F := Ideal) x2 (ix2 c 1))) := by
  rw [val_main_v129_apply, val_main_call1_v1_apply, val_main_call1_v0_apply, val_main_cst_13_apply,
    val_main_v128_apply, val_main_v127_apply, val_main_v120_apply,
    val_main_v125_apply, val_main_v122_apply, val_main_v121_apply,
    val_main_v126_apply, val_main_v124_apply, val_main_v123_apply,
    val_main_v118_apply, val_main_v115_apply, val_main_v114_apply,
    val_main_v119_apply, val_main_v117_apply, val_main_v116_apply]
  have e1 : idx_main_v121 (idx_main_v122 (idx_main_v125 (ix3 r c (1 : Fin 2)))) = ix2 r 3 := by
    funext a; match a with | ⟨0, _⟩ => rfl | ⟨1, _⟩ => rfl
  have e2 : idx_main_v123 (idx_main_v124 (idx_main_v126 (ix3 r c (1 : Fin 2)))) = ix2 c 3 := by
    funext a; match a with | ⟨0, _⟩ => rfl | ⟨1, _⟩ => rfl
  have e3 : idx_main_v114 (idx_main_v115 (idx_main_v118 (ix3 r c (1 : Fin 2)))) = ix2 r 1 := by
    funext a; match a with | ⟨0, _⟩ => rfl | ⟨1, _⟩ => rfl
  have e4 : idx_main_v116 (idx_main_v117 (idx_main_v119 (ix3 r c (1 : Fin 2)))) = ix2 c 1 := by
    funext a; match a with | ⟨0, _⟩ => rfl | ⟨1, _⟩ => rfl
  rw [e1, e2, e3, e4]
  rfl

/-! ## Areas: a product over the two axes, read through a slice and a reshape that drops the unit axis -/

/-- Position (r, c) of the flattened pair array is element r * 2048 + c, which splits back into (r, c, 0). -/
theorem pair_split0 (r : Fin 14400) (c : Fin 2048) :
    idx_main_v102 (idx_main_v103 (ix2 r c)) = ix3 r c (0 : Fin 2) := by
  have hr := r.isLt
  have hc := c.isLt
  funext a
  match a with
  | ⟨0, _⟩ => exact Fin.ext (by show (r.val * 2048 + c.val) / 2048 = r.val; omega)
  | ⟨1, _⟩ => exact Fin.ext (by show (r.val * 2048 + c.val) / 1 % 2048 = c.val; omega)
  | ⟨2, _⟩ => rfl

theorem pair_split1 (r : Fin 14400) (c : Fin 2048) :
    idx_main_v104 (idx_main_v105 (ix2 r c)) = ix3 r c (1 : Fin 2) := by
  have hr := r.isLt
  have hc := c.isLt
  funext a
  match a with
  | ⟨0, _⟩ => exact Fin.ext (by show (r.val * 2048 + c.val) / 2048 = r.val; omega)
  | ⟨1, _⟩ => exact Fin.ext (by show (r.val * 2048 + c.val) / 1 % 2048 = c.val; omega)
  | ⟨2, _⟩ => rfl

theorem pair_split0' (r : Fin 14400) (c : Fin 2048) :
    idx_main_v130 (idx_main_v131 (ix2 r c)) = ix3 r c (0 : Fin 2) := by
  have hr := r.isLt
  have hc := c.isLt
  funext a
  match a with
  | ⟨0, _⟩ => exact Fin.ext (by show (r.val * 2048 + c.val) / 2048 = r.val; omega)
  | ⟨1, _⟩ => exact Fin.ext (by show (r.val * 2048 + c.val) / 1 % 2048 = c.val; omega)
  | ⟨2, _⟩ => rfl

theorem pair_split1' (r : Fin 14400) (c : Fin 2048) :
    idx_main_v132 (idx_main_v133 (ix2 r c)) = ix3 r c (1 : Fin 2) := by
  have hr := r.isLt
  have hc := c.isLt
  funext a
  match a with
  | ⟨0, _⟩ => exact Fin.ext (by show (r.val * 2048 + c.val) / 2048 = r.val; omega)
  | ⟨1, _⟩ => exact Fin.ext (by show (r.val * 2048 + c.val) / 1 % 2048 = c.val; omega)
  | ⟨2, _⟩ => rfl

/-- The overlap area is the product of the two extents. -/
theorem inter_read (x1 : S16x900x4.Idx → EReal) (x2 : S16x128x4.Idx → EReal) (r : Fin 14400) (c : Fin 2048) :
    val_main_v106 (F := Ideal) x1 x2 (ix2 r c)
      = val_main_v101 (F := Ideal) x1 x2 (ix3 r c (0 : Fin 2)) * val_main_v101 (F := Ideal) x1 x2 (ix3 r c (1 : Fin 2)) := by
  rw [val_main_v106_apply, val_main_v103_apply, val_main_v102_apply, val_main_v105_apply, val_main_v104_apply,
    pair_split0, pair_split1]
  rfl

/-- The hull area likewise. -/
theorem enc_read (x1 : S16x900x4.Idx → EReal) (x2 : S16x128x4.Idx → EReal) (r : Fin 14400) (c : Fin 2048) :
    val_main_v134 (F := Ideal) x1 x2 (ix2 r c)
      = val_main_v129 (F := Ideal) x1 x2 (ix3 r c (0 : Fin 2)) * val_main_v129 (F := Ideal) x1 x2 (ix3 r c (1 : Fin 2)) := by
  rw [val_main_v134_apply, val_main_v131_apply, val_main_v130_apply, val_main_v133_apply, val_main_v132_apply,
    pair_split0', pair_split1']
  rfl

/-- The two boxes' own areas, one broadcast along the targets and the other along the predictions, added. -/
theorem areas_read (x1 : S16x900x4.Idx → EReal) (x2 : S16x128x4.Idx → EReal) (r : Fin 14400) (c : Fin 2048) :
    val_main_v111 (F := Ideal) x1 x2 (ix2 r c)
      = val_main_v74 (F := Ideal) x1 (ix1 r) + val_main_v85 (F := Ideal) x2 (ix1 c) := by
  rw [val_main_v111_apply, val_main_v109_apply, val_main_v107_apply, val_main_v110_apply, val_main_v108_apply]
  have e1 : idx_main_v107 (idx_main_v109 (ix2 r c)) = ix1 r := by
    funext a; match a with | ⟨0, _⟩ => rfl
  have e2 : idx_main_v108 (idx_main_v110 (ix2 r c)) = ix1 c := by
    funext a; match a with | ⟨0, _⟩ => rfl
  rw [e1, e2]
  rfl

/-! ## The term -/

/-- -(I / U - (E - U) / E) with U = (A_p + A_t) - I, all at position (r, c). -/
theorem giou_read (x1 : S16x900x4.Idx → EReal) (x2 : S16x128x4.Idx → EReal) (r : Fin 14400) (c : Fin 2048) :
    val_main_v138 (F := Ideal) x1 x2 (ix2 r c)
      = -(giouOf
            ((val_main_v74 (F := Ideal) x1 (ix1 r) + val_main_v85 (F := Ideal) x2 (ix1 c)) - val_main_v106 (F := Ideal) x1 x2 (ix2 r c))
            (val_main_v106 (F := Ideal) x1 x2 (ix2 r c))
            (val_main_v134 (F := Ideal) x1 x2 (ix2 r c))) := by
  rw [val_main_v138_apply, val_main_v137_apply, val_main_v113_apply, val_main_v136_apply, val_main_v135_apply,
    val_main_v112_apply, areas_read]
  rfl

/-- The reference's term at image b, query q, target t, from the corner and area reads of the two boxes. -/
theorem ref_giou
    (hp0 : ∀ (x1 : S16x900x4.Idx → EReal) (b : Fin 16) (q : Fin 900),
      Read.val_main_v46 (F := Ideal) x1 (ix2 (rowOf b q) 0) = lo (predBox x1 b q 0) (predBox x1 b q 2))
    (hp1 : ∀ (x1 : S16x900x4.Idx → EReal) (b : Fin 16) (q : Fin 900),
      Read.val_main_v46 (F := Ideal) x1 (ix2 (rowOf b q) 1) = lo (predBox x1 b q 1) (predBox x1 b q 3))
    (hp2 : ∀ (x1 : S16x900x4.Idx → EReal) (b : Fin 16) (q : Fin 900),
      Read.val_main_v46 (F := Ideal) x1 (ix2 (rowOf b q) 2) = hi (predBox x1 b q 0) (predBox x1 b q 2))
    (hp3 : ∀ (x1 : S16x900x4.Idx → EReal) (b : Fin 16) (q : Fin 900),
      Read.val_main_v46 (F := Ideal) x1 (ix2 (rowOf b q) 3) = hi (predBox x1 b q 1) (predBox x1 b q 3))
    (ht0 : ∀ (x2 : S16x128x4.Idx → EReal) (b : Fin 16) (t : Fin 128),
      Read.val_main_v63 (F := Ideal) x2 (ix2 (colOf b t) 0) = lo (tgtBox x2 b t 0) (tgtBox x2 b t 2))
    (ht1 : ∀ (x2 : S16x128x4.Idx → EReal) (b : Fin 16) (t : Fin 128),
      Read.val_main_v63 (F := Ideal) x2 (ix2 (colOf b t) 1) = lo (tgtBox x2 b t 1) (tgtBox x2 b t 3))
    (ht2 : ∀ (x2 : S16x128x4.Idx → EReal) (b : Fin 16) (t : Fin 128),
      Read.val_main_v63 (F := Ideal) x2 (ix2 (colOf b t) 2) = hi (tgtBox x2 b t 0) (tgtBox x2 b t 2))
    (ht3 : ∀ (x2 : S16x128x4.Idx → EReal) (b : Fin 16) (t : Fin 128),
      Read.val_main_v63 (F := Ideal) x2 (ix2 (colOf b t) 3) = hi (tgtBox x2 b t 1) (tgtBox x2 b t 3))
    (hap : ∀ (x1 : S16x900x4.Idx → EReal) (b : Fin 16) (q : Fin 900),
      Read.val_main_v74 (F := Ideal) x1 (ix1 (rowOf b q)) = areaR (predBox x1 b q))
    (hat : ∀ (x2 : S16x128x4.Idx → EReal) (b : Fin 16) (t : Fin 128),
      Read.val_main_v85 (F := Ideal) x2 (ix1 (colOf b t)) = areaR (tgtBox x2 b t))
    (x1 : S16x900x4.Idx → EReal) (x2 : S16x128x4.Idx → EReal) (b : Fin 16) (q : Fin 900) (t : Fin 128) :
    Read.val_main_v138 (F := Ideal) x1 x2 (ix2 (rowOf b q) (colOf b t))
      = -(giouOf (unionR (predBox x1 b q) (tgtBox x2 b t)) (interR (predBox x1 b q) (tgtBox x2 b t))
            (encR (predBox x1 b q) (tgtBox x2 b t))) := by
  have hI : val_main_v106 (F := Ideal) x1 x2 (ix2 (rowOf b q) (colOf b t)) = interR (predBox x1 b q) (tgtBox x2 b t) := by
    rw [inter_read, overlap_axis0, overlap_axis1, hp0, hp1, hp2, hp3, ht0, ht1, ht2, ht3]
    rfl
  have hE : val_main_v134 (F := Ideal) x1 x2 (ix2 (rowOf b q) (colOf b t)) = encR (predBox x1 b q) (tgtBox x2 b t) := by
    rw [enc_read, hull_axis0, hull_axis1, hp0, hp1, hp2, hp3, ht0, ht1, ht2, ht3]
    rfl
  rw [giou_read, hI, hE, hap, hat]
  rfl

end Cert.ReferenceIdeal.CostRead

end
-- ==== Proof.RefFinal.lean ====
/-
  The second program's last steps, read at one element.

  The cost of every (query row, target column) pair is an array of shape [14400, 2048], rows the 16 images' 900 queries
  laid end to end and columns the 16 images' 128 targets laid end to end.  It is re-read as [16, 900, 16, 128] (row
  `b · 900 + q` is `(b, q)`, column `b' · 128 + t` is `(b', t)`), and the blocks on the diagonal `b' = b` are taken out by
  a gather whose start indices are the array [16, 2] with row `b` equal to `(b, b)`: each column is the positions
  0, …, 15, passed through the select that adds 16 to a negative position (no position is negative, so it keeps every
  one).  The gather collapses operand axes 0 and 2 to the start index `(b, b)` (clamped into [0, 15], which keeps it)
  and carries axes 1 and 3 over, so result element `(b, q, t)` is the operand's `(b, q, b, t)`: the cost at row
  `b · 900 + q`, column `b · 128 + t`.
-/
import proofs.«408529_j63204738727936_1_alg».proof.Proof.Gen.ReferenceIdeal.Read
import proofs.«408529_j63204738727936_1_alg».proof.Proof.Spec
import Idealize.ShloMosaic.Lib.ValueIdx
import Idealize.ShloMosaic.Lib.Pipeline.Value

noncomputable section

namespace Cert.ReferenceIdeal.CostRead

open Idealize.ShloMosaic Idealize.ShloMosaic.ValueIdx Cert.MatchCost Cert.ReferenceIdeal

namespace Final

/-! ## Words: the positions 0, …, 15 -/

/-- A position below 16 is not negative as a signed word, so the select that would add 16 to a negative one keeps it. -/
theorem wrap_keep (k : Fin 16) :
    Scalar.select (IntOp.cmpi .slt (BitVec.ofNat 32 k.val) 0#32) (IntOp.addi (BitVec.ofNat 32 k.val) 16#32)
      (BitVec.ofNat 32 k.val) = BitVec.ofNat 32 k.val := by
  revert k; decide

/-- Read signed and clamped to the last position, the word of a position below 16 is the position. -/
theorem clamp_pos (k : Fin 16) : min (BitVec.ofNat 32 k.val).toInt.toNat 15 = k.val := by
  revert k; decide

section Shapes
variable [Facts₀] {α : Type} {w : Nat}

/-! ## The gather at an index -/

/-- The gather's dimension numbers: offset axes [1, 2], collapsed operand axes [0, 2], start index map [0, 2],
    index vector along axis 1, slices of sizes [1, 900, 1, 128]. -/
abbrev gd : GatherDims S16x900x16x128 S16x2 S16x900x128 :=
  gather_S16x900x16x128_S16x2_S16x900x128_12_02_n_n_02_1_19001128

theorem gd_mem_sim0 : (0 : Fin 4) ∈ gd.startIndexMap := (by decide : (0 : Fin 4) ∈ ([0, 2] : List (Fin 4)))
theorem gd_mem_sim2 : (2 : Fin 4) ∈ gd.startIndexMap := (by decide : (2 : Fin 4) ∈ ([0, 2] : List (Fin 4)))
theorem gd_not_mem_sim1 : (1 : Fin 4) ∉ gd.startIndexMap := (by decide : (1 : Fin 4) ∉ ([0, 2] : List (Fin 4)))
theorem gd_not_mem_sim3 : (3 : Fin 4) ∉ gd.startIndexMap := (by decide : (3 : Fin 4) ∉ ([0, 2] : List (Fin 4)))
theorem gd_mem_col0 : (0 : Fin 4) ∈ gd.collapsedSliceDims := (by decide : (0 : Fin 4) ∈ ([0, 2] : List (Fin 4)))
theorem gd_mem_col2 : (2 : Fin 4) ∈ gd.collapsedSliceDims := (by decide : (2 : Fin 4) ∈ ([0, 2] : List (Fin 4)))
/-- The operand's axes that are not collapsed are 1 and 3. -/
theorem gd_mem_kept1 : (1 : Fin 4) ∈ gd.sKept := (by decide : (1 : Fin 4) ∈ ([1, 3] : List (Fin 4)))
theorem gd_mem_kept3 : (3 : Fin 4) ∈ gd.sKept := (by decide : (3 : Fin 4) ∈ ([1, 3] : List (Fin 4)))

/-- The first component of result index `j`'s start index sits at `(j 0, 0)` of the start indices … -/
theorem gd_siIdx0 (j : S16x900x128.Idx) (h : List.idxOf (0 : Fin 4) gd.startIndexMap < gd.startIndexMap.length) :
    gd.siIdx j ⟨List.idxOf (0 : Fin 4) gd.startIndexMap, h⟩ = ix2 (j 0) 0 := by
  funext c; refine Fin.ext ?_
  match c with
  | ⟨0, _⟩ => rfl
  | ⟨1, _⟩ => rfl

/-- … and the second, the one for operand axis 2, at `(j 0, 1)`. -/
theorem gd_siIdx2 (j : S16x900x128.Idx) (h : List.idxOf (2 : Fin 4) gd.startIndexMap < gd.startIndexMap.length) :
    gd.siIdx j ⟨List.idxOf (2 : Fin 4) gd.startIndexMap, h⟩ = ix2 (j 0) 1 := by
  funext c; refine Fin.ext ?_
  match c with
  | ⟨0, _⟩ => rfl
  | ⟨1, _⟩ => rfl

/-- The slice starts, per operand axis: the clamped start index on axes 0 and 2 (extent 16, slice size 1), zero on
    axes 1 and 3. -/
theorem gd_start0 (j : S16x900x128.Idx) (idx : IVec S16x2 w) :
    gd.start j idx 0 = min (idx (ix2 (j 0) 0)).toInt.toNat 15 := by
  unfold GatherDims.start
  rw [dif_pos gd_mem_sim0, gd_siIdx0]
  rfl

theorem gd_start2 (j : S16x900x128.Idx) (idx : IVec S16x2 w) :
    gd.start j idx 2 = min (idx (ix2 (j 0) 1)).toInt.toNat 15 := by
  unfold GatherDims.start
  rw [dif_pos gd_mem_sim2, gd_siIdx2]
  rfl

theorem gd_start1 (j : S16x900x128.Idx) (idx : IVec S16x2 w) : gd.start j idx 1 = 0 := by
  unfold GatherDims.start; rw [dif_neg gd_not_mem_sim1]

theorem gd_start3 (j : S16x900x128.Idx) (idx : IVec S16x2 w) : gd.start j idx 3 = 0 := by
  unfold GatherDims.start; rw [dif_neg gd_not_mem_sim3]

/-- The offset coordinates: zero on the collapsed axes 0 and 2; on axes 1 and 3 the result's coordinates on its
    offset axes 1 and 2. -/
theorem gd_off0 (j : S16x900x128.Idx) : gd.offCoord j 0 = 0 :=
  GatherDims.offCoord_eq_zero _ _ _ (fun h => ((GatherDims.mem_sKept _ _).mp h).1 gd_mem_col0)

theorem gd_off2 (j : S16x900x128.Idx) : gd.offCoord j 2 = 0 :=
  GatherDims.offCoord_eq_zero _ _ _ (fun h => ((GatherDims.mem_sKept _ _).mp h).1 gd_mem_col2)

theorem gd_off1 (j : S16x900x128.Idx) : gd.offCoord j 1 = (j 1).val := by
  unfold GatherDims.offCoord; rw [dif_pos gd_mem_kept1]; rfl

theorem gd_off3 (j : S16x900x128.Idx) : gd.offCoord j 3 = (j 2).val := by
  unfold GatherDims.offCoord; rw [dif_pos gd_mem_kept3]; rfl

/-- There are no batching axes. -/
theorem gd_batch (j : S16x900x128.Idx) (a : Fin 4) : gd.batchCoord j a = 0 :=
  GatherDims.batchCoord_eq_zero _ _ _ List.not_mem_nil

/-- THE GATHER READ AT `(b, q, t)`: the operand at `(s0, q, s2, t)`, `s0` and `s2` the two components of row `b` of the
    start indices, read signed and clamped into `[0, 15]`. -/
theorem gather_diag_apply (x : S16x900x16x128.Idx → α) (idx : IVec S16x2 w) (b : Fin 16) (q : Fin 900) (t : Fin 128)
    (s0 s2 : Fin 16)
    (h0 : min (idx (ix2 b 0)).toInt.toNat 15 = s0.val)
    (h2 : min (idx (ix2 b 1)).toInt.toNat 15 = s2.val) :
    Host.gather gd x idx (ix3 b q t) = x (ix4 s0 q s2 t) := by
  unfold Host.gather
  congr 1
  funext a
  refine Fin.ext ?_
  match a with
  | ⟨0, _⟩ =>
    show gd.start (ix3 b q t) idx 0 + gd.batchCoord (ix3 b q t) 0 + gd.offCoord (ix3 b q t) 0 = s0.val
    rw [gd_start0, gd_batch, gd_off0]; exact h0
  | ⟨1, _⟩ =>
    show gd.start (ix3 b q t) idx 1 + gd.batchCoord (ix3 b q t) 1 + gd.offCoord (ix3 b q t) 1 = q.val
    rw [gd_start1, gd_batch, gd_off1]; exact Nat.zero_add _
  | ⟨2, _⟩ =>
    show gd.start (ix3 b q t) idx 2 + gd.batchCoord (ix3 b q t) 2 + gd.offCoord (ix3 b q t) 2 = s2.val
    rw [gd_start2, gd_batch, gd_off2]; exact h2
  | ⟨3, _⟩ =>
    show gd.start (ix3 b q t) idx 3 + gd.batchCoord (ix3 b q t) 3 + gd.offCoord (ix3 b q t) 3 = t.val
    rw [gd_start3, gd_batch, gd_off3]; exact Nat.zero_add _

/-! ## Two one-column arrays joined along axis 1 -/

/-- Column 0 of the join is the first piece … -/
theorem concat_col0 (y0 y1 : S16x1.Idx → α) (b : Fin 16) :
    concatenate S16x2 1 [⟨S16x1, y0⟩, ⟨S16x1, y1⟩] Facts₀.concatenates_S16x1_S16x1_S16x2_d1 (ix2 b 0) = y0 (ix2 b 0) := by
  refine concatenate_pair_apply_left (t := S16x2) (s₁ := S16x1) (s₂ := S16x1) (1 : Fin 2) y0 y1
    Facts₀.concatenates_S16x1_S16x1_S16x2_d1 (ix2 b 0 : S16x2.Idx) rfl (ix2 b 0 : S16x1.Idx) ?_
  intro c
  match c with
  | ⟨0, _⟩ => rfl
  | ⟨1, _⟩ => rfl

/-- … and column 1 the second. -/
theorem concat_col1 (y0 y1 : S16x1.Idx → α) (b : Fin 16) :
    concatenate S16x2 1 [⟨S16x1, y0⟩, ⟨S16x1, y1⟩] Facts₀.concatenates_S16x1_S16x1_S16x2_d1 (ix2 b 1) = y1 (ix2 b 0) := by
  refine concatenate_pair_apply_right (t := S16x2) (s₁ := S16x1) (s₂ := S16x1) (1 : Fin 2) y0 y1
    Facts₀.concatenates_S16x1_S16x1_S16x2_d1 (ix2 b 1 : S16x2.Idx) rfl rfl (ix2 b 0 : S16x1.Idx) ?_ ?_
  · intro c hc
    match c with
    | ⟨0, _⟩ => rfl
    | ⟨1, _⟩ => exact absurd rfl hc
  · rfl

end Shapes

/-! ## The start indices: row `b` is `(b, b)` -/

theorem idx_col0 (b : Fin 16) : Read.val_main_v162 (F := Ideal) (ix2 b 0) = BitVec.ofNat 32 b.val := by
  unfold Read.val_main_v162
  refine (concat_col0 _ _ b).trans ?_
  rw [Read.val_main_v160_apply, Read.val_main_v154_apply, Read.val_main_v151_apply, Read.val_main_v153_apply,
    Read.val_main_v148_apply, Read.val_main_v150_apply, Read.val_main_v152_apply, Read.val_main_c_17_apply,
    Read.val_main_c_18_apply]
  exact wrap_keep b

theorem idx_col1 (b : Fin 16) : Read.val_main_v162 (F := Ideal) (ix2 b 1) = BitVec.ofNat 32 b.val := by
  unfold Read.val_main_v162
  refine (concat_col1 _ _ b).trans ?_
  rw [Read.val_main_v161_apply, Read.val_main_v159_apply, Read.val_main_v156_apply, Read.val_main_v158_apply,
    Read.val_main_v149_apply, Read.val_main_v155_apply, Read.val_main_v157_apply, Read.val_main_c_19_apply,
    Read.val_main_c_20_apply]
  exact wrap_keep b

end Final

/-- The last array at `(b, q, t)` is the cost array at row `b · 900 + q`, column `b · 128 + t`. -/
theorem ref_gather (x0 : S16x900x257.Idx → EReal) (x1 : S16x900x4.Idx → EReal) (x2 : S16x128x4.Idx → EReal)
    (x3 : S16x128.Idx → BitVec 32) (b : Fin 16) (q : Fin 900) (t : Fin 128) :
    Read.val_main_v163 (F := Ideal) x0 x1 x2 x3 (ix3 b q t)
      = Read.val_main_v146 (F := Ideal) x0 x1 x2 x3 (ix2 (rowOf b q) (colOf b t)) := by
  unfold Read.val_main_v163
  refine (Final.gather_diag_apply _ _ b q t b b ?_ ?_).trans ?_
  · rw [Final.idx_col0]; exact Final.clamp_pos b
  · rw [Final.idx_col1]; exact Final.clamp_pos b
  rw [Read.val_main_v147_apply]
  congr 1
  funext a
  refine Fin.ext ?_
  have hb : b.val < 16 := b.isLt
  have hq : q.val < 900 := q.isLt
  have ht : t.val < 128 := t.isLt
  match a with
  | ⟨0, _⟩ =>
    show (((b.val * 900 + q.val) * 16 + b.val) * 128 + t.val) / 2048 = b.val * 900 + q.val
    omega
  | ⟨1, _⟩ =>
    show (((b.val * 900 + q.val) * 16 + b.val) * 128 + t.val) % 2048 = b.val * 128 + t.val
    omega

end Cert.ReferenceIdeal.CostRead

end
-- ==== Proof.RefCost.lean ====
/-
  The reference's result array is `GR` of its arguments, index by index.

  Entry (b, q, t) of the result is entry (b·900 + q, b·128 + t) of the all-pairs cost (the last gather keeps, for
  image `b`, the targets of image `b`), and that entry is the sum of three terms: the class term (the negated softmax
  probability at the target's label), five times the L1 distance of the two boxes, and twice their negated generalized
  IoU — the three readings of Proof/RefClass.lean, Proof/RefBox.lean and Proof/RefGiou.lean, which together are `costR`.
-/
import proofs.«408529_j63204738727936_1_alg».proof.Proof.Gen.ReferenceIdeal.Read
import proofs.«408529_j63204738727936_1_alg».proof.Proof.Spec
import proofs.«408529_j63204738727936_1_alg».proof.Proof.RefClass
import proofs.«408529_j63204738727936_1_alg».proof.Proof.RefBox
import proofs.«408529_j63204738727936_1_alg».proof.Proof.RefGiou
import proofs.«408529_j63204738727936_1_alg».proof.Proof.RefFinal

noncomputable section

open Idealize.ShloMosaic Idealize.ShloMosaic.ValueIdx Cert.MatchCost

namespace Cert.ReferenceIdeal.CostRead

open Cert.ReferenceIdeal Cert.ReferenceIdeal.Gen

/-- The negated generalized IoU of query (b, q) and target (b, t), the corner and area readings supplied. -/
theorem ref_giou_at (x1 : S16x900x4.Idx → EReal) (x2 : S16x128x4.Idx → EReal) (b : Fin 16) (q : Fin 900) (t : Fin 128) :
    Read.val_main_v138 (F := Ideal) x1 x2 (ix2 (rowOf b q) (colOf b t))
      = -(giouOf (unionR (predBox x1 b q) (tgtBox x2 b t)) (interR (predBox x1 b q) (tgtBox x2 b t)) (encR (predBox x1 b q) (tgtBox x2 b t))) :=
  ref_giou ref_corner_p0 ref_corner_p1 ref_corner_p2 ref_corner_p3 ref_corner_t0 ref_corner_t1 ref_corner_t2 ref_corner_t3
    ref_area_p ref_area_t x1 x2 b q t

/-- The reference's result array is `GR`: `1 · class + 5 · L1 + 2 · (-GIoU)` at every (image, query, target). -/
theorem ref_eq_GR (x0 : S16x900x257.Idx → EReal) (x1 : S16x900x4.Idx → EReal) (x2 : S16x128x4.Idx → EReal) (x3 : S16x128.Idx → BitVec 32) :
    Read.val_main_v163 (F := Ideal) x0 x1 x2 x3 = GR x0 x1 x2 x3 := by
  funext i
  obtain ⟨b, q, t, rfl⟩ : ∃ (b : Fin 16) (q : Fin 900) (t : Fin 128), i = ix3 b q t := ⟨i 0, i 1, i 2, eq_ix3 i⟩
  rw [ref_gather, Read.val_main_v146_apply, Read.val_main_v143_apply, Read.val_main_v140_apply, Read.val_main_v142_apply,
    Read.val_main_v145_apply, Read.val_main_v139_apply, Read.val_main_v141_apply, Read.val_main_v144_apply,
    Read.val_main_cst_14_apply, Read.val_main_cst_15_apply, Read.val_main_cst_16_apply, ref_cls, ref_l1, ref_giou_at]
  rfl

end Cert.ReferenceIdeal.CostRead

end
-- ==== Proof.lean ====
/-
  The matching-cost kernel against its reference, at the ideal instance.

  Per image `b` the kernel computes, for every (query `q`, target `t`), the cost
  `1 · class + 5 · L1 + 2 · (-GIoU)` (Proof/Spec.lean) from the query's 257 logits, the query's box, the
  target's box and the target's label: one grid point per image, the class probability selected by a
  product of the softmax row with the indicator column of the label.  The reference computes the same
  cost for ALL 14400 × 2048 (query, target) pairs of the batch laid end to end and then keeps, for image
  `b`, the pairs whose target belongs to `b`.

  The two agree index by index.  Both are first read as explicit functions of the argument arrays —
  `GK` for the kernel (Proof/KernelValue.lean, from the kernel's blocks; its class term by
  Proof/KernelClass.lean, the indicator by Proof/KernelHost.lean), `GR` for the reference
  (Proof/RefFinal.lean, Proof/RefClass.lean, Proof/RefBox.lean, Proof/RefGiou.lean, joined in Proof/RefCost.lean)
  — and `GK = GR` is extended-real algebra (Proof/Algebra.lean): a box's area `w · h` is
  `((cx + w/2) - (cx - w/2)) · ((cy + h/2) - (cy - h/2))` for FINITE coordinates, and the sum of a softmax row
  against an indicator column is the row's entry at the label for a label in `[0, 257)`.  Both facts are what
  the precondition gives (Proof/PreFacts.lean): finite box coordinates, labels in range.
-/
import proofs.«408529_j63204738727936_1_alg».proof.Defs
import proofs.«408529_j63204738727936_1_alg».proof.Proof.Gen.Kernel
import proofs.«408529_j63204738727936_1_alg».proof.Proof.Gen.Kernel.Skeleton
import proofs.«408529_j63204738727936_1_alg».proof.Proof.Gen.Kernel.Launch
import proofs.«408529_j63204738727936_1_alg».proof.Proof.Gen.Kernel.Points
import proofs.«408529_j63204738727936_1_alg».proof.Proof.Gen.Kernel.Frame
import proofs.«408529_j63204738727936_1_alg».proof.Proof.Gen.KernelIdeal
import proofs.«408529_j63204738727936_1_alg».proof.Proof.Gen.KernelIdeal.Skeleton
import proofs.«408529_j63204738727936_1_alg».proof.Proof.Gen.KernelIdeal.Launch
import proofs.«408529_j63204738727936_1_alg».proof.Proof.Gen.KernelIdeal.Points
import proofs.«408529_j63204738727936_1_alg».proof.Proof.Gen.KernelIdeal.Frame
import proofs.«408529_j63204738727936_1_alg».proof.Proof.Gen.ReferenceIdeal
import proofs.«408529_j63204738727936_1_alg».proof.Proof.ValuePatched
import proofs.«408529_j63204738727936_1_alg».proof.Proof.Gen.ReferenceIdeal.Run
import proofs.«408529_j63204738727936_1_alg».proof.Proof.Gen.ReferenceIdeal.Read
import proofs.«408529_j63204738727936_1_alg».proof.Proof.Gen.Pre_finite_inputs
import proofs.«408529_j63204738727936_1_alg».proof.Proof.Spec
import proofs.«408529_j63204738727936_1_alg».proof.Proof.Algebra
import proofs.«408529_j63204738727936_1_alg».proof.Proof.PreFacts
import proofs.«408529_j63204738727936_1_alg».proof.Proof.KernelClass
import proofs.«408529_j63204738727936_1_alg».proof.Proof.KernelHost
import proofs.«408529_j63204738727936_1_alg».proof.Proof.KernelValue
import proofs.«408529_j63204738727936_1_alg».proof.Proof.RefClass
import proofs.«408529_j63204738727936_1_alg».proof.Proof.RefBox
import proofs.«408529_j63204738727936_1_alg».proof.Proof.RefGiou
import proofs.«408529_j63204738727936_1_alg».proof.Proof.RefFinal
import proofs.«408529_j63204738727936_1_alg».proof.Proof.RefCost
import Idealize.ShloMosaic.Adequacy
import Idealize.ShloMosaic.Init

noncomputable section

open Idealize.ShloMosaic Idealize.ShloMosaic.TcCoe Idealize.SL.Sem Idealize.ShloMosaic.ValueIdx Cert.MatchCost

/-! ## The claims -/

namespace Cert.Proof

open Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At `Ideal` the kernel's result array ends at `GK` of its arguments and the reference's at `GR` of arguments that
    agree; under the precondition the box coordinates are finite and the labels in range, where `GK = GR`. -/
theorem algebraic : Cert.algebraic_KernelIdeal_ReferenceIdeal := by
  intro m ρ m' ρ' hpre hagree
  refine ⟨_, Cert.KernelIdeal.CostValue.run Cert.KernelIdeal.ClassTerm.pay2_apply Cert.KernelIdeal.HostPart.onehot_read m ρ, ?_⟩
  refine (θ_run Cert.ReferenceIdeal.defs _ _).mono (fun _ h c => ⟨(h c).1.trans ?_, (h c).2⟩)
    (Cert.ReferenceIdeal.Value.run (F := Ideal) m' ρ')
  obtain ⟨h1, h2, h3⟩ := Cert.MatchCost.pre_facts _ _ _ _ (hpre c)
  rw [Cert.ReferenceIdeal.Read.val_main_v163_eq, Cert.ReferenceIdeal.CostRead.ref_eq_GR, (hagree c).1, (hagree c).2.1, (hagree c).2.2.1, (hagree c).2.2.2]
  exact (Cert.MatchCost.GK_eq_GR _ _ _ _ h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
